-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2048x2048 : Shape := ⟨2, ![2048, 2048]⟩
abbrev S2 : Shape := ⟨1, ![2]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S2048x256 .f32) (main_arg1 : FVec F S2048x2048 .f32) (main_arg2 : FVec F S2 .f32) (main_arg3 : FVec F S2 .f32) (main_arg4 : FVec F S2 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2 .f32 := Host.absf main_arg2
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_v14 : FVec F S2 .f32 := Host.absf main_arg3
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg4 main_v13 main_v16
-- ==== Kernel.lean ====
abbrev S2048x256 : Shape := ⟨2, ![2048, 256]⟩
abbrev S2048x2048 : Shape := ⟨2, ![2048, 2048]⟩
abbrev S2 : Shape := ⟨1, ![2]⟩
abbrev S_ : Shape := ⟨0, ![]⟩
abbrev S1x2 : Shape := ⟨2, ![1, 2]⟩
abbrev S3x2 : Shape := ⟨2, ![3, 2]⟩
abbrev S2048x254 : Shape := ⟨2, ![2048, 254]⟩
abbrev S256x2048 : Shape := ⟨2, ![256, 2048]⟩
abbrev S256x256 : Shape := ⟨2, ![256, 256]⟩
abbrev S256x254 : Shape := ⟨2, ![256, 254]⟩
abbrev S256 : Shape := ⟨1, ![256]⟩
abbrev S256x1 : Shape := ⟨2, ![256, 1]⟩
abbrev S1x1 : Shape := ⟨2, ![1, 1]⟩

abbrev nBuf : Space → Nat
  | .hbm => 14
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2, .f32⟩
  | .hbm, ⟨3, _⟩ => ⟨S2, .f32⟩
  | .hbm, ⟨4, _⟩ => ⟨S2, .f32⟩
  | .hbm, ⟨5, _⟩ => ⟨S_, .f32⟩
  | .hbm, ⟨6, _⟩ => ⟨S2048x2048, .f32⟩
  | .hbm, ⟨7, _⟩ => ⟨S2048x2048, .i1⟩
  | .hbm, ⟨8, _⟩ => ⟨S2048x2048, .bf16⟩
  | .hbm, ⟨9, _⟩ => ⟨S1x2, .f32⟩
  | .hbm, ⟨10, _⟩ => ⟨S1x2, .f32⟩
  | .hbm, ⟨11, _⟩ => ⟨S1x2, .f32⟩
  | .hbm, ⟨12, _⟩ => ⟨S3x2, .f32⟩
  | .hbm, ⟨13, _⟩ => ⟨S2048x254, .f32⟩
  | .local _ .vmem, ⟨0, _⟩ => ⟨S3x2, .f32⟩
  | .local _ .vmem, ⟨1, _⟩ => ⟨S256x2048, .bf16⟩
  | .local _ .vmem, ⟨2, _⟩ => ⟨S256x2048, .bf16⟩
  | .local _ .vmem, ⟨3, _⟩ => ⟨S2048x2048, .bf16⟩
  | .local _ .vmem, ⟨4, _⟩ => ⟨S2048x256, .f32⟩
  | .local _ .vmem, ⟨5, _⟩ => ⟨S256x256, .f32⟩
  | .local _ .vmem, ⟨6, _⟩ => ⟨S256x256, .f32⟩
  | .local _ .vmem, ⟨7, _⟩ => ⟨S256x254, .f32⟩
  | .local _ .vmem, ⟨8, _⟩ => ⟨S256x254, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x254 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2048x2048 : S_.BroadcastsInDim S2048x2048 (![] : Fin 0 → Fin S2048x2048.rank)
  bcast_S2_S1x2_1 : S2.BroadcastsInDim S1x2 (![1] : Fin 1 → Fin S1x2.rank)
  concatenates_S1x2_S1x2_S1x2_S3x2_d0 : Shape.Concatenates [S1x2, S1x2, S1x2] S3x2 0
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  iota_S256x2048_d0_w32 : S256x2048.Iotas .tc 32 [0]
  iota_S256x2048_d1_w32 : S256x2048.Iotas .tc 32 [1]
  natLt_1_32 : 1 < 32
  reduces_S256x2048_S256 : S256x2048.Reduces [1] S256
  shapeCasts_S256_S256x1 : S256.ShapeCasts S256x1
  broadcasts_S256x1_S256x2048 : S256x1.Broadcasts S256x2048
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  inb_S3x2_S1x1_0_0 : ∀ a, (![0, 0] : Fin 2 → Nat) a + S1x1.size a ≤ S3x2.size a
  h_S1x1 : 0 < S1x1.numel
  inpos_S1x1_p0_0 : ∀ a, (![0, 0] : Fin 2 → Nat) a < S1x1.size a
  slices_S256x256_o0_1_S256x254 : S256x256.Slices ![0, 1] S256x254
  inb_S3x2_S1x1_1_0 : ∀ a, (![1, 0] : Fin 2 → Nat) a + S1x1.size a ≤ S3x2.size a
  inb_S3x2_S1x1_2_0 : ∀ a, (![2, 0] : Fin 2 → Nat) a + S1x1.size a ≤ S3x2.size a
  inb_S3x2_S1x1_0_1 : ∀ a, (![0, 1] : Fin 2 → Nat) a + S1x1.size a ≤ S3x2.size a
  slices_S256x256_o0_0_S256x254 : S256x256.Slices ![0, 0] S256x254
  inb_S3x2_S1x1_1_1 : ∀ a, (![1, 1] : Fin 2 → Nat) a + S1x1.size a ≤ S3x2.size a
  inb_S3x2_S1x1_2_1 : ∀ a, (![2, 1] : Fin 2 → Nat) a + S1x1.size a ≤ S3x2.size a
  inb_S256x254_S256x254_0_0 : ∀ a, (![0, 0] : Fin 2 → Nat) a + S256x254.size a ≤ S256x254.size a
  h_S256x254 : 0 < S256x254.numel
  dot_S256x2048_S2048x2048_S256x2048_1_0_0_1_n_n_wf : DotDims.WF S256x2048 S2048x2048 S256x2048 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x2.size a ≤ S3x2.size a
  hwx0_0 : ∀ i : grid0.Coords, EltTy.bits .f32 = 32 ∨ (Rect.block (s := S3x2) S3x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .f32 = 32 ∨ (Rect.block (s := S2048x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S2048x256.size a
  hwx0_4 : ∀ i : grid0.Coords, EltTy.bits .f32 = 32 ∨ (Rect.block (s := S2048x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x254.size a ≤ S2048x254.size a
  hwx0_5 : ∀ i : grid0.Coords, EltTy.bits .f32 = 32 ∨ (Rect.block (s := S2048x254) S256x254.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_v6) S3x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x254.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x256 : Shape := ⟨2, ![2048, 256]⟩
abbrev S2048x2048 : Shape := ⟨2, ![2048, 2048]⟩
abbrev S2 : Shape := ⟨1, ![2]⟩
abbrev S_ : Shape := ⟨0, ![]⟩
abbrev S2048x254 : Shape := ⟨2, ![2048, 254]⟩
abbrev S1 : Shape := ⟨1, ![1]⟩
abbrev S2048 : Shape := ⟨1, ![2048]⟩
abbrev S2048x1 : Shape := ⟨2, ![2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .f32⟩
  | .hbm, ⟨2, _⟩ => ⟨S2, .f32⟩
  | .hbm, ⟨3, _⟩ => ⟨S2, .f32⟩
  | .hbm, ⟨4, _⟩ => ⟨S2, .f32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S_, .f32⟩
  | .hbm, ⟨12, _⟩ => ⟨S2048x2048, .f32⟩
  | .hbm, ⟨13, _⟩ => ⟨S2048x2048, .i1⟩
  | .hbm, ⟨14, _⟩ => ⟨S2048x2048, .i1⟩
  | .hbm, ⟨15, _⟩ => ⟨S2048x2048, .i1⟩
  | .hbm, ⟨16, _⟩ => ⟨S2048x2048, .i1⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .i1⟩
  | .hbm, ⟨23, _⟩ => ⟨S2048x2048, .i1⟩
  | .hbm, ⟨24, _⟩ => ⟨S2048x2048, .i1⟩
  | .hbm, ⟨25, _⟩ => ⟨S2048x2048, .i1⟩
  | .hbm, ⟨26, _⟩ => ⟨S_, .f32⟩
  | .hbm, ⟨27, _⟩ => ⟨S2048x254, .f32⟩
  | .hbm, ⟨28, _⟩ => ⟨S2048x254, .f32⟩
  | .hbm, ⟨29, _⟩ => ⟨S1, .f32⟩
  | .hbm, ⟨30, _⟩ => ⟨S_, .f32⟩
  | .hbm, ⟨31, _⟩ => ⟨S2048x254, .f32⟩
  | .hbm, ⟨32, _⟩ => ⟨S2048x254, .f32⟩
  | .hbm, ⟨33, _⟩ => ⟨S2048x254, .f32⟩
  | .hbm, ⟨34, _⟩ => ⟨S2048x254, .f32⟩
  | .hbm, ⟨35, _⟩ => ⟨S1, .f32⟩
  | .hbm, ⟨36, _⟩ => ⟨S_, .f32⟩
  | .hbm, ⟨37, _⟩ => ⟨S2048x254, .f32⟩
  | .hbm, ⟨38, _⟩ => ⟨S2048x254, .f32⟩
  | .hbm, ⟨39, _⟩ => ⟨S2048x254, .f32⟩
  | .hbm, ⟨40, _⟩ => ⟨S2048x254, .f32⟩
  | .hbm, ⟨41, _⟩ => ⟨S2048x2048, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x2048, .f32⟩
  | .hbm, ⟨49, _⟩ => ⟨S2048x2048, .f32⟩
  | .hbm, ⟨50, _⟩ => ⟨S2048x254, .f32⟩
  | .hbm, ⟨51, _⟩ => ⟨S1, .f32⟩
  | .hbm, ⟨52, _⟩ => ⟨S_, .f32⟩
  | .hbm, ⟨53, _⟩ => ⟨S2048x254, .f32⟩
  | .hbm, ⟨54, _⟩ => ⟨S2048x254, .f32⟩
  | .hbm, ⟨55, _⟩ => ⟨S2048x254, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S2048x254, .f32⟩
  | .hbm, ⟨66, _⟩ => ⟨S1, .f32⟩
  | .hbm, ⟨67, _⟩ => ⟨S_, .f32⟩
  | .hbm, ⟨68, _⟩ => ⟨S2048x254, .f32⟩
  | .hbm, ⟨69, _⟩ => ⟨S2048x254, .f32⟩
  | .hbm, ⟨70, _⟩ => ⟨S2048x254, .f32⟩
  | .hbm, ⟨71, _⟩ => ⟨S2048x254, .f32⟩
  | .hbm, ⟨72, _⟩ => ⟨S2048x2048, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S2048x2048, .f32⟩
  | .hbm, ⟨80, _⟩ => ⟨S2048x2048, .f32⟩
  | .hbm, ⟨81, _⟩ => ⟨S2048x254, .f32⟩
  | .hbm, ⟨82, _⟩ => ⟨S1, .f32⟩
  | .hbm, ⟨83, _⟩ => ⟨S_, .f32⟩
  | .hbm, ⟨84, _⟩ => ⟨S2048x254, .f32⟩
  | .hbm, ⟨85, _⟩ => ⟨S2048x254, .f32⟩
  | .hbm, ⟨86, _⟩ => ⟨S2048x254, .f32⟩
  | .hbm, ⟨87, _⟩ => ⟨S2048x2048, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S2048x2048, .f32⟩
  | .hbm, ⟨95, _⟩ => ⟨S2048x2048, .f32⟩
  | .hbm, ⟨96, _⟩ => ⟨S2048x254, .f32⟩
  | .hbm, ⟨97, _⟩ => ⟨S1, .f32⟩
  | .hbm, ⟨98, _⟩ => ⟨S_, .f32⟩
  | .hbm, ⟨99, _⟩ => ⟨S2048x254, .f32⟩
  | .hbm, ⟨100, _⟩ => ⟨S2048x254, .f32⟩
  | .hbm, ⟨101, _⟩ => ⟨S2048x254, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S2048x254 : S_.BroadcastsInDim S2048x254 (![] : Fin 0 → Fin S2048x254.rank)
  slices_S2048x256_S2048x254_0_1 : S2048x256.Slices ![0, 1] S2048x254
  slices_S2_S1_0 : S2.Slices ![0] S1
  shapeCasts_S1_S_ : S1.ShapeCasts S_
  slices_S2048x256_S2048x254_0_0 : S2048x256.Slices ![0, 0] S2048x254
  slices_S2_S1_1 : S2.Slices ![1] S1
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  dot_S2048x2048_S2048x2048_S2048x2048_1_0_0_1_n_n_wf : DotDims.WF S2048x2048 S2048x2048 S2048x2048 [1] [0] [0] [1] [] []
  dot_S2048x2048_S2048x254_S2048x254_1_0_0_1_n_n_wf : DotDims.WF S2048x2048 S2048x254 S2048x254 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S2048x2048_S2048x254_S2048x254_1_0_0_1_n_n : DotDims S2048x2048 S2048x254 S2048x254 where
  lhsContracting := [1]
  rhsContracting := [0]
  lhsNonContracting := [0]
  rhsNonContracting := [1]
  lhsBatch := []
  rhsBatch := []
  wf := dot_S2048x2048_S2048x254_S2048x254_1_0_0_1_n_n_wf

class Facts : Prop extends Facts₀ where

variable [Facts]
-- ==== Proof.FrameI.lean ====
/-
  The pipelined program's frame. The one launch has six windows over FOUR arrays: the coefficient table (3 × 2), the
  joined-indicator array (2048 × 2048) read through TWO windows — a 256-row block that moves with the grid point and
  the whole array, fetched once —, the series (2048 × 256) likewise read through a whole-array window and a 256-row
  block, and the result (2048 × 254), written back one 256-row block per grid point. An array read through two
  windows is held by each of them at HALF its share; the body only loads its five input buffers and stores the whole
  output block once, so what each input buffer holds at a point is its array's block there, and what the output
  buffer holds after the body is one pure function of those blocks (`out5`).
-/
import proofs.«112727_g65996467471051_cont_9to1c4b_428_2_alg».proof.Proof.Gen.KernelIdeal.Launch
import proofs.«112727_g65996467471051_cont_9to1c4b_428_2_alg».proof.Proof.Gen.KernelIdeal.Skeleton
import proofs.«112727_g65996467471051_cont_9to1c4b_428_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- Core `c`'s buffers when the launch is entered: after the eight host operations (the indicator array, the
    coefficient table). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem nary_writes {n : Nat} (xs : Fin n → Ref sig .tc) (y : Ref sig .tc) (f) (hxs hy) :
    (StableHlo.nary (τ := τ) (Val := Elt F) xs y f hxs hy).writes = {Proc.devRef .tc y} := rfl

/-- No host operation writes an argument array: the launch finds each as it was at the start. -/
theorem V_arg (b : Ref sig .tc) (hb : b = main_arg0 ∨ b = main_arg1 ∨ b = main_arg2 ∨ b = main_arg3 ∨ b = main_arg4) (c : Dev nD) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, nary_writes, Finset.mem_singleton]
    rcases hb with rfl | rfl | rfl | rfl | rfl <;>
    · repeat' apply And.intro
      all_goals exact StableHlo.devRef_ne_of_ne (by decide)))

theorem V_main_arg0 (c : Dev nD) : V m c main_arg0 = m ((c : Thread nD τ).loc main_arg0) := V_arg m _ (.inl rfl) c
theorem V_main_arg1 (c : Dev nD) : V m c main_arg1 = m ((c : Thread nD τ).loc main_arg1) := V_arg m _ (.inr (.inl rfl)) c
theorem V_main_arg2 (c : Dev nD) : V m c main_arg2 = m ((c : Thread nD τ).loc main_arg2) := V_arg m _ (.inr (.inr (.inl rfl))) c
theorem V_main_arg3 (c : Dev nD) : V m c main_arg3 = m ((c : Thread nD τ).loc main_arg3) := V_arg m _ (.inr (.inr (.inr (.inl rfl)))) c
theorem V_main_arg4 (c : Dev nD) : V m c main_arg4 = m ((c : Thread nD τ).loc main_arg4) := V_arg m _ (.inr (.inr (.inr (.inr rfl)))) c

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not (a window whose block does
    not move is fetched once and still holds the block), for any proof data over these arrays whose body leaves the
    input buffers as it found them. One statement per input window, each at its literal index. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output buffer -/

abbrev rC00 : Rect S3x2 := Rect.unit (s := S3x2) ![0, 0] S1x1.size inb_S3x2_S1x1_0_0
abbrev rC10 : Rect S3x2 := Rect.unit (s := S3x2) ![1, 0] S1x1.size inb_S3x2_S1x1_1_0
abbrev rC20 : Rect S3x2 := Rect.unit (s := S3x2) ![2, 0] S1x1.size inb_S3x2_S1x1_2_0
abbrev rC01 : Rect S3x2 := Rect.unit (s := S3x2) ![0, 1] S1x1.size inb_S3x2_S1x1_0_1
abbrev rC11 : Rect S3x2 := Rect.unit (s := S3x2) ![1, 1] S1x1.size inb_S3x2_S1x1_1_1
abbrev rC21 : Rect S3x2 := Rect.unit (s := S3x2) ![2, 1] S1x1.size inb_S3x2_S1x1_2_1
abbrev rJb : Rect S256x2048 := Rect.unit (s := S256x2048) ![0, 0] S256x2048.size inb_S256x2048_S256x2048_0_0
abbrev rJ : Rect S2048x2048 := Rect.unit (s := S2048x2048) ![0, 0] S2048x2048.size inb_S2048x2048_S2048x2048_0_0
abbrev rX : Rect S2048x256 := Rect.unit (s := S2048x256) ![0, 0] S2048x256.size inb_S2048x256_S2048x256_0_0
abbrev rXb : Rect S256x256 := Rect.unit (s := S256x256) ![0, 0] S256x256.size inb_S256x256_S256x256_0_0
abbrev rY : Rect S256x254 := Rect.unit (s := S256x254) ![0, 0] S256x254.size inb_S256x254_S256x254_0_0

/-- The output buffer after the body at grid coordinates `i`, from the five input buffers' contents: its one store,
    of the whole block, over the values the body loaded. -/
def out5 (i : grid0.Coords) (x0 : Vec F S3x2 .f32) (x1 : Vec F S256x2048 .bf16) (x2 : Vec F S2048x2048 .bf16)
    (x3 : Vec F S2048x256 .f32) (x4 : Vec F S256x256 .f32) : Vec F S256x254 .f32 :=
  View.canon [⟨rY, k0_pay1 (k0_pay5 i (View.ld x1 rJb) (View.ld x3 rX)) (k0_pay6 i (View.ld x1 rJb) (View.ld x2 rJ) (View.ld x3 rX))
    (View.ld x4 rXb) (View.ld x0 rC00) (View.ld x0 rC10) (View.ld x0 rC20) (View.ld x0 rC01) (View.ld x0 rC11) (View.ld x0 rC21)⟩]

/-- The one store is of the whole block: it covers the buffer. -/
theorem cover5 (p0 : Vec F S256x254 .f32) (y : S256x254.Idx) :
    ∃ pc ∈ ([⟨rY, p0⟩] : List (View.Piece (Elt F) S256x254 .f32)), y ∈ pc.1.set :=
  View.cover_of_tiled [⟨rY, p0⟩] S256x254.size (by rfl) y

/-! ## The body's triple -/

set_option maxHeartbeats 1000000 in
/-- The body on whole staging memrefs, the inputs' at contents `x0 … x4` and the output's at anything, runs to its
    continuation holding the inputs' as they were and the output's at `out5` of them. -/
theorem sound_kernel (c : Dev nD) (E : Set ℕ) (i : grid0.Coords)
    (arg1 : Memref sig .tc .vmem S3x2 .f32) (harg1 : arg1.IsWhole) (arg2 : Memref sig .tc .vmem S256x2048 .bf16) (harg2 : arg2.IsWhole)
    (arg3 : Memref sig .tc .vmem S2048x2048 .bf16) (harg3 : arg3.IsWhole) (arg4 : Memref sig .tc .vmem S2048x256 .f32) (harg4 : arg4.IsWhole)
    (arg5 : Memref sig .tc .vmem S256x256 .f32) (harg5 : arg5.IsWhole) (arg6 : Memref sig .tc .vmem S256x254 .f32) (harg6 : arg6.IsWhole)
    (x0 : Vec F S3x2 .f32) (x1 : Vec F S256x2048 .bf16) (x2 : Vec F S2048x2048 .bf16) (x3 : Vec F S2048x256 .f32) (x4 : Vec F S256x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 i x0 x1 x2 x3 x4)) -∗ K ⟨⟩))
      ⊢ wp frame (wpE (defs₀ (F := F)) Variants.none c none) E
          (cc0__gnar_block_kernel i arg1 harg1 arg2 harg2 arg3 harg3 arg4 harg4 arg5 harg5 arg6 harg6) K := by
  simp only [cc0__gnar_block_kernel_eq_skeleton]; unfold cc0__gnar_block_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of the one pipeline on core `c`: the arrays as the launch finds them; after the body at point `t`
    each input's buffer at its block and the output's at `out5` of the input blocks; nothing carried between points
    (the invariant is the core's scoped buffers outside the pipeline: the body uses none); nothing owed. The indicator array and the series are each read through two windows, so each of those four windows
    holds its array at one half of the full share; the coefficient table is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (grid0.coords t) (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

/-- The proof data's arrays are the launch-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = out5 (grid0.coords t) (iblk m c 0 t) (iblk m c 1 t) (iblk m c 2 t) (iblk m c 3 t) (iblk m c 4 t) := by dsimp only [dats]

/-- Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- The share each window holds its array at. -/
theorem share0 (c : Dev nD) : (dats m 0 c).share 0 = fullShare := by unfold Dat.share; rfl
theorem share1 (c : Dev nD) : (dats m 0 c).share 1 = fullShare.left := by unfold Dat.share; rfl
theorem share2 (c : Dev nD) : (dats m 0 c).share 2 = fullShare.right := by unfold Dat.share; rfl
theorem share3 (c : Dev nD) : (dats m 0 c).share 3 = fullShare.left := by unfold Dat.share; rfl
theorem share4 (c : Dev nD) : (dats m 0 c).share 4 = fullShare.right := by unfold Dat.share; rfl
theorem share5 (c : Dev nD) : (dats m 0 c).share 5 = fullShare := by unfold Dat.share; rfl

/-- Before any write-back an array holds its entry contents. -/
theorem arrAt_zero (c : Dev nD) (w : Fin cfg0.W) : (dats m 0 c).arrAt w 0 = V m c (Pipeline.arrRef spec0 w) := by
  rw [Dat.arrAt]; exact A_eq m c w

/-! ## The arrays dealt among the windows -/

/-- The four buffers behind the six windows' arrays, each whole at the full share at any contents `W`, make the arrays
    of any proof data over those contents that holds the coefficient table and the result whole and each of the two
    shared arrays at complementary halves: the indicator array and the series are each split in two, one half for the
    window that reads a moving block and one for the window that reads the array whole. -/
theorem split_arrays (c : Dev nD) (W : (b : Ref sig .tc) → Buf (Elt F) ((c.tc : Thread nD τ).loc b))
    (dat : Dat τ (Elt F) Unit ℕ (UR sig nD τ) ℕ cfg0 c)
    (h0 : dat.share 0 = fullShare) (h1 : dat.share 1 = fullShare.left) (h2 : dat.share 2 = fullShare.right)
    (h3 : dat.share 3 = fullShare.left) (h4 : dat.share 4 = fullShare.right) (h5 : dat.share 5 = fullShare)
    (hA : ∀ w, dat.arrAt w 0 = W (Pipeline.arrRef spec0 w)) :
    (Pipeline.arrBufs (Ix := Unit) (Name := ℕ) (U := UR sig nD τ) (Lvl := ℕ) spec0 c W : sProp 𝕄)
      ⊢ dat.arrays (dat.arrAt · 0) := by
  unfold Pipeline.arrBufs Dat.arrays
  rw [bigSep_W0, bigSep_eq_bigSepL_of_eq [main_v6, main_v2, main_arg0, main_v7] (by decide) (by decide)]
  simp only [View.set_whole, h0, h1, h2, h3, h4, h5, hA]
  refine (show iprop((((c.tc : Thread nD τ).loc main_v6) ↦{fullShare} W main_v6) ∗ (((c.tc : Thread nD τ).loc main_v2) ↦{fullShare} W main_v2)
    ∗ (((c.tc : Thread nD τ).loc main_arg0) ↦{fullShare} W main_arg0) ∗ (((c.tc : Thread nD τ).loc main_v7) ↦{fullShare} W main_v7))
    ⊢ iprop((((c.tc : Thread nD τ).loc main_v6) ↦{fullShare} W main_v6)
      ∗ (((c.tc : Thread nD τ).loc main_v2) ↦{fullShare.left} W main_v2) ∗ (((c.tc : Thread nD τ).loc main_v2) ↦{fullShare.right} W main_v2)
      ∗ (((c.tc : Thread nD τ).loc main_arg0) ↦{fullShare.left} W main_arg0) ∗ (((c.tc : Thread nD τ).loc main_arg0) ↦{fullShare.right} W main_arg0)
      ∗ (((c.tc : Thread nD τ).loc main_v7) ↦{fullShare} W main_v7)) from ?_)
  iintro ⟨H6, H2, H0, H7⟩
  icases (pointsTo_share (PosShare.mem_left_op_right fullShare)).1 $$ H2 with ⟨H2l, H2r⟩
  icases (pointsTo_share (PosShare.mem_left_op_right fullShare)).1 $$ H0 with ⟨H0l, H0r⟩
  isplitl [H6]; · iexact H6
  isplitl [H2l]; · iexact H2l
  isplitl [H2r]; · iexact H2r
  isplitl [H0l]; · iexact H0l
  isplitl [H0r]; · iexact H0r
  iexact H7

/-- The launch's arrays, dealt so. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  split_arrays c (V m c) (dats m 0 c) (share0 m c) (share1 m c) (share2 m c) (share3 m c) (share4 m c) (share5 m c) (arrAt_zero m c)

/-! ## The run and the frame -/

set_option backward.isDefEq.respectTransparency.types false in
/-- From any memory with zero counters every weakly fair execution of the program terminates, and every final state
    has each window's array at what the write-backs leave of it (an input's: its entry contents) and every other
    unscoped buffer as the launch found it. The pipeline's own ghost state is all there is (the body names no
    semaphore); the buffers that bypass the launch are set aside at its entry and read back at its exit. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => (show iprop(emp ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, H⟩; iexact H))
    (hout := fun c => (show Pipeline.scopedRest (Ix := Unit) (Name := ℕ) (U := UR sig nD τ) (Lvl := ℕ) (Val := Elt F) spec0 c
        ⊢ iprop(emp ∗ Pipeline.scopedRest (Ix := Unit) (Name := ℕ) (U := UR sig nD τ) (Lvl := ℕ) (Val := Elt F) spec0 c) from by
      iintro H
      isplitr; · iempintro
      iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => h c)

/-- THE FRAME: the program runs to the end and its five argument arrays end as they began. The series is an input
    window's array, which no write-back touches; the other four bypass the launch; and no host operation writes any. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(((h c).1 3).trans ((dats m 0 c).arrAt_in 3 rfl _)).trans ((A_eq m c 3).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelIdeal.Fr

end
-- ==== Proof.Spec.lean ====
/-
  The result both programs compute, as ONE function of the argument arrays, index by index, over the extended reals.

  `A` is a 2048 × 2048 weight array; nodes `i` and `k` are JOINED when `A[i,k] ≠ 0`. The first-stage neighbours of
  `i` are the nodes joined to it other than `i` itself (`near`); the second-stage neighbours are the nodes `j ≠ i`
  NOT joined to `i` that a two-step walk `i → k → j` along joined pairs reaches (`next`; `walks` counts those walks).
  Each stage's indicator row is divided by its number of ones, or by 1 when the row is empty (`cnt`), and applied to the
  series `X` (2048 × 256): `mean h i t = ∑ k, h i k / cnt h i · X[k,t]`. The result, 2048 × 254, at row `i` and
  column `j`, adds the lag-one terms (read at column `j + 1`) and the lag-two terms (read at column `j`) of the
  series itself and of its two neighbourhood means, each under its coefficient:
      a[0]·X[i,j+1] + b₀[0]·mean near i (j+1) + b₁[0]·mean next i (j+1)
    + a[1]·X[i,j]   + b₀[1]·mean near i j     + b₁[1]·mean next i j.
-/
import Idealize.ShloMosaic.PureOps.Ideal
import Idealize.ShloMosaic.Lib.ValueIdx

noncomputable section

open scoped BigOperators Classical

namespace Cert.Spec

open Idealize.ShloMosaic Idealize.ShloMosaic.ValueIdx

/-- The series, the weights, a coefficient vector, the result: their literal shapes. -/
abbrev SX : Shape := ⟨2, ![2048, 256]⟩
abbrev SA : Shape := ⟨2, ![2048, 2048]⟩
abbrev SP : Shape := ⟨1, ![2]⟩
abbrev SY : Shape := ⟨2, ![2048, 254]⟩

/-- The indicator of a proposition, as an extended real. -/
def ind (p : Prop) : EReal := if p then 1 else 0

/-- Column `j` of the result reads the series at column `j + 1` for lag one -/
abbrev lag1 (j : Fin 254) : Fin 256 := ⟨j.val + 1, by omega⟩
/-- and at column `j` for lag two. -/
abbrev lag2 (j : Fin 254) : Fin 256 := ⟨j.val, by omega⟩
/-- Row `p` of the `b`-th block of 256 rows is row `256·b + p` of the array. -/
abbrev row (b : Fin 8) (p : Fin 256) : Fin 2048 := ⟨256 * b.val + p.val, by omega⟩

variable (X : SX.Idx → EReal) (A : SA.Idx → EReal) (a b₀ b₁ : SP.Idx → EReal)

/-- Nodes `i` and `k` are joined: the weight between them is not zero. -/
def joined (i k : Fin 2048) : Prop := A (ix2 i k) ≠ 0

/-- First-stage neighbours: joined, and not the node itself. -/
def near (i k : Fin 2048) : EReal := ind (joined A i k ∧ i ≠ k)

/-- The number of two-step walks `i → k → j` along joined pairs (a node may be joined to itself). -/
def walks (i j : Fin 2048) : EReal := ∑ k : Fin 2048, ind (joined A i k) * ind (joined A k j)

/-- Second-stage neighbours: reached by a two-step walk, not joined to the node, and not the node itself. -/
def next (i j : Fin 2048) : EReal := ind (0 < walks A i j ∧ ¬ joined A i j ∧ i ≠ j)

/-- The number of ones in row `i` of an indicator array, or 1 for an empty row. -/
def cnt (h : Fin 2048 → Fin 2048 → EReal) (i : Fin 2048) : EReal := max (∑ k : Fin 2048, h i k) 1

/-- Row `i` of the row-normalized indicator array applied to column `t` of the series. -/
def mean (h : Fin 2048 → Fin 2048 → EReal) (i : Fin 2048) (t : Fin 256) : EReal :=
  ∑ k : Fin 2048, Ideal.div (h i k) (cnt h i) * X (ix2 k t)

/-- The result at row `i`, column `j`. -/
def out (i : Fin 2048) (j : Fin 254) : EReal :=
  ((a (ix1 0) * X (ix2 i (lag1 j)) + b₀ (ix1 0) * mean X (near A) i (lag1 j)) + b₁ (ix1 0) * mean X (next A) i (lag1 j))
  + ((a (ix1 1) * X (ix2 i (lag2 j)) + b₀ (ix1 1) * mean X (near A) i (lag2 j)) + b₁ (ix1 1) * mean X (next A) i (lag2 j))

/-- The result array. -/
def G : SY.Idx → EReal := fun y => out X A a b₀ b₁ (y 0) (y 1)

theorem G_apply (i : Fin 2048) (j : Fin 254) : G X A a b₀ b₁ (ix2 i j) = out X A a b₀ b₁ i j := rfl

end Cert.Spec

end
-- ==== Proof.KernelPay.lean ====
/-
  The kernel body's arithmetic at one grid point, read at the extended reals and at one index of the output block: when
  the body's loads hold the `b`-th block of rows of the joined-indicator array, that whole array, the whole series, the
  `b`-th block of rows of the series, and the six coefficients, the value it stores at row `p`, column `q` of the
  block is the specification's result at row `256·b + p`, column `q`.
-/
import proofs.«112727_g65996467471051_cont_9to1c4b_428_2_alg».proof.Proof.Gen.KernelIdeal.Skeleton
import proofs.«112727_g65996467471051_cont_9to1c4b_428_2_alg».proof.Proof.Spec
import Idealize.ShloMosaic.Lib.Pipeline.Value
import Idealize.ShloMosaic.Lib.ValueIdx
import Idealize.ShloMosaic.PureOps.Ideal.Laws

noncomputable section

open scoped BigOperators Classical

namespace Cert.KernelPay

open Idealize.ShloMosaic Idealize.ShloMosaic.ValueIdx Cert.KernelIdeal Cert.KernelIdeal.Gen

/-! ## One-bit words and the propositions they decide -/

/-- The one-bit word that decides a proposition. -/
def bit (P : Prop) : BitVec 1 := if P then 1#1 else 0#1

theorem bit_true {P : Prop} (h : P) : bit P = 1#1 := if_pos h
theorem bit_false {P : Prop} (h : ¬P) : bit P = 0#1 := if_neg h

/-- Conjunction of the bits. -/
theorem andi_bit (P Q : Prop) : IntOp.andi (bit P) (bit Q) = bit (P ∧ Q) := by
  by_cases hP : P <;> by_cases hQ : Q <;> simp [bit, hP, hQ, IntOp.andi]

/-- Exclusive or with the set bit is negation. -/
theorem xori_bit_one (P : Prop) : IntOp.xori (bit P) 1#1 = bit (¬P) := by
  by_cases hP : P <;> simp [bit, hP, IntOp.xori]

/-- Equality of words, as a bit. -/
theorem cmpi_eq_bit {w : Nat} (x y : BitVec w) : IntOp.cmpi .eq x y = bit (x = y) := by
  show BitVec.ofBool (x == y) = _
  by_cases h : x = y
  · rw [bit_true h, beq_iff_eq.mpr h]; rfl
  · rw [bit_false h, beq_eq_false_iff_ne.mpr h]; rfl

/-- A strict comparison with zero on the extended reals, as a bit. -/
theorem cmp_ogt_zero (x : EReal) : Ideal.cmp .ogt x 0 = bit (0 < x) := by
  by_cases h : 0 < x <;> simp [bit, h, Ideal.cmp]

/-- A bit widened to a word and read as a signed integer is the indicator of its proposition. -/
theorem sitofp_extui_bit (P : Prop) :
    FloatOps.sitofp (F := Ideal) .f32 ((bit P).setWidth 32) = Cert.Spec.ind P := by
  show (((((bit P).setWidth 32).toInt : ℤ) : ℝ) : EReal) = Cert.Spec.ind P
  by_cases hP : P
  · rw [bit_true hP, Cert.Spec.ind, if_pos hP]
    have : ((1#1 : BitVec 1).setWidth 32).toInt = 1 := by decide
    rw [this]; simp
  · rw [bit_false hP, Cert.Spec.ind, if_neg hP]
    have : ((0#1 : BitVec 1).setWidth 32).toInt = 0 := by decide
    rw [this]; simp

/-- The indicator of a proposition is positive exactly when the proposition holds. -/
theorem ind_pos_iff (P : Prop) : 0 < Cert.Spec.ind P ↔ P := by
  by_cases hP : P <;> simp [Cert.Spec.ind, hP]

/-- The zero patterns and the pattern of one, as extended reals. -/
theorem ofBits_zero_bf16 : Ideal.ofBits .bf16 0x0000#16 = 0 := by simp [Ideal.ofBits, Ideal.ieee]
theorem ofBits_one_f32 : Ideal.ofBits .f32 0x3F800000#32 = 1 := by
  simp [Ideal.ofBits, Ideal.ieee, -EReal.coe_mul]; norm_num

/-- Row `256·b + p` against column `k` on 32-bit words: no wrap at these sizes. -/
theorem word_row_eq_iff (p : Fin 256) (b : Fin 8) (k : Fin 2048) :
    (BitVec.ofNat 32 p.val + BitVec.ofNat 32 b.val * 256#32 = BitVec.ofNat 32 k.val) ↔ Cert.Spec.row b p = k := by
  have hp := p.isLt; have hb := b.isLt; have hk := k.isLt
  rw [← BitVec.toNat_inj, Fin.ext_iff]
  simp only [BitVec.toNat_add, BitVec.toNat_mul, BitVec.toNat_ofNat]
  show _ ↔ 256 * b.val + p.val = k.val
  omega

/-! ## Layout operations at an index -/

section Layout
variable {α : Type}

/-- A vector of 256 rows viewed as a column reads its row. -/
theorem shapeCast_col_apply (x : S256.Idx → α) (p : Fin 256) (z : Fin 1) :
    shapeCast S256x1 x shapeCasts_S256_S256x1 (ix2 p z) = x (ix1 p) := by
  refine shapeCast_apply x _ (ix2 p z) (ix1 p) ?_
  rw [Shape.rowMajor_val_one, Shape.rowMajor_val_two]
  show p.val = p.val * 1 + z.val
  have := z.isLt; omega

/-- A column broadcast along the lanes reads its row's one element. -/
theorem broadcastTo_col_apply (x : S256x1.Idx → α) (p : Fin 256) (k : Fin 2048) :
    broadcastTo S256x2048 x broadcasts_S256x1_S256x2048 (ix2 p k) = x (ix2 p 0) := by
  refine broadcastTo_apply x _ (ix2 p k) (ix2 p 0) fun a => ?_
  match a with
  | ⟨0, _⟩ => show p.val = if (256 : Nat) = 1 then 0 else p.val; rw [if_neg (by decide)]
  | ⟨1, _⟩ => show 0 = if (1 : Nat) = 1 then 0 else k.val; rw [if_pos rfl]

/-- The slice at column offset 1 reads column `q + 1`, -/
theorem slice1_apply (x : S256x256.Idx → α) (p : Fin 256) (q : Fin 254) :
    extractStridedSlice S256x254 ![0, 1] x slices_S256x256_o0_1_S256x254 (ix2 p q) = x (ix2 p (Cert.Spec.lag1 q)) := by
  refine extractStridedSlice_apply _ x _ (ix2 p q) _ fun a => ?_
  match a with
  | ⟨0, _⟩ => show p.val = 0 + p.val; omega
  | ⟨1, _⟩ => show q.val + 1 = 1 + q.val; omega

/-- the slice at column offset 0 column `q`. -/
theorem slice0_apply (x : S256x256.Idx → α) (p : Fin 256) (q : Fin 254) :
    extractStridedSlice S256x254 ![0, 0] x slices_S256x256_o0_0_S256x254 (ix2 p q) = x (ix2 p (Cert.Spec.lag2 q)) := by
  refine extractStridedSlice_apply _ x _ (ix2 p q) _ fun a => ?_
  match a with
  | ⟨0, _⟩ => show p.val = 0 + p.val; omega
  | ⟨1, _⟩ => show q.val = 0 + q.val; omega

/-- The one element of a 1 × 1 vector. -/
theorem extract00 (v : S1x1.Idx → α) : extractAt ![0, 0] v inpos_S1x1_p0_0 = v (ix2 0 0) := by
  unfold extractAt
  exact congrArg v (funext fun a => Fin.ext (by match a with | ⟨0, _⟩ => rfl | ⟨1, _⟩ => rfl))

end Layout

/-- The row counter and the column counter. -/
theorem iota0_apply (p : Fin 256) (k : Fin 2048) :
    iota .tc S256x2048 32 [0] iota_S256x2048_d0_w32 (ix2 p k) = BitVec.ofNat 32 p.val :=
  iota_single_apply .tc S256x2048 32 0 _ (ix2 p k)
theorem iota1_apply (p : Fin 256) (k : Fin 2048) :
    iota .tc S256x2048 32 [1] iota_S256x2048_d1_w32 (ix2 p k) = BitVec.ofNat 32 k.val :=
  iota_single_apply .tc S256x2048 32 1 _ (ix2 p k)

/-- The sum along the lanes of a block, at a row. -/
theorem laneSum_apply (src : FVec Ideal S256x2048 .f32) (p : Fin 256) :
    multiReduction (F := Ideal) .add [1] S256 src 0x00000000#32 reduces_S256x2048_S256 (.inl rfl) rfl (ix1 p)
      = ∑ k : Fin 2048, src (ix2 p k) := by
  refine (Ideal.multiReduction_add_single src 0x00000000#32 reduces_S256x2048_S256 (.inl rfl) rfl (ix1 p)).trans ?_
  refine Finset.sum_congr rfl fun k _ => congrArg src (funext fun a => Fin.ext ?_)
  match a with
  | ⟨0, _⟩ => rfl
  | ⟨1, _⟩ => rfl

/-! ## The matrix products as sums over the contracted coordinate -/

theorem lhsX_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem lhsX_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem rhsX_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem rhsX_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- A block of 256 rows times the series: the sum over the 2048 nodes. -/
theorem matmulX_apply {φ₁ φ₂ : FTy} (lhs : FVec Ideal S256x2048 φ₁) (rhs : FVec Ideal S2048x256 φ₂) (p : Fin 256) (t : Fin 256) :
    matmul dot_S256x2048_S2048x256_S256x256_1_0_0_1_n_n none lhs rhs (constant (F := Ideal) S256x256 .f32 0x00000000#32) (ix2 p t)
      = ∑ k : Fin 2048, lhs (ix2 p k) * rhs (ix2 k t) := by
  show FloatOps.matmul dot_S256x2048_S2048x256_S256x256_1_0_0_1_n_n none lhs rhs (constant (F := Ideal) S256x256 .f32 0x00000000#32) (ix2 p t) = _
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 p t) ((contrEquiv1 dot_S256x2048_S2048x256_S256x256_1_0_0_1_n_n 2048 rfl rfl).symm k) = ix2 p k := funext fun a => Fin.ext (by
    match a with
    | ⟨0, _⟩ => exact lhsX_0 _ _
    | ⟨1, _⟩ => exact (lhsX_1 _ _).trans hk)
  have er : dot_S256x2048_S2048x256_S256x256_1_0_0_1_n_n.rhsIdx (ix2 p t) ((contrEquiv1 dot_S256x2048_S2048x256_S256x256_1_0_0_1_n_n 2048 rfl rfl).symm k) = ix2 k t := funext fun a => Fin.ext (by
    match a with
    | ⟨0, _⟩ => exact (rhsX_0 _ _).trans hk
    | ⟨1, _⟩ => exact rhsX_1 _ _)
  rw [el, er]

theorem lhsW_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
theorem lhsW_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
theorem rhsW_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
theorem rhsW_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- A block of 256 rows of the indicator array times the whole array: the sum over the middle node. -/
theorem matmulW_apply {φ₁ φ₂ : FTy} (lhs : FVec Ideal S256x2048 φ₁) (rhs : FVec Ideal S2048x2048 φ₂) (p : Fin 256) (t : Fin 2048) :
    matmul dot_S256x2048_S2048x2048_S256x2048_1_0_0_1_n_n none lhs rhs (constant (F := Ideal) S256x2048 .f32 0x00000000#32) (ix2 p t)
      = ∑ k : Fin 2048, lhs (ix2 p k) * rhs (ix2 k t) := by
  show FloatOps.matmul dot_S256x2048_S2048x2048_S256x2048_1_0_0_1_n_n none lhs rhs (constant (F := Ideal) S256x2048 .f32 0x00000000#32) (ix2 p t) = _
  rw [Ideal.matmul_constant_zero_apply, ← Equiv.sum_comp (contrEquiv1 dot_S256x2048_S2048x2048_S256x2048_1_0_0_1_n_n 2048 rfl rfl).symm]
  refine Finset.sum_congr rfl fun k _ => ?_
  have hk := contrEquiv1_symm_val dot_S256x2048_S2048x2048_S256x2048_1_0_0_1_n_n 2048 rfl rfl k
  have el : dot_S256x2048_S2048x2048_S256x2048_1_0_0_1_n_n.lhsIdx (ix2 p t) ((contrEquiv1 dot_S256x2048_S2048x2048_S256x2048_1_0_0_1_n_n 2048 rfl rfl).symm k) = ix2 p k := funext fun a => Fin.ext (by
    match a with
    | ⟨0, _⟩ => exact lhsW_0 _ _
    | ⟨1, _⟩ => exact (lhsW_1 _ _).trans hk)
  have er : dot_S256x2048_S2048x2048_S256x2048_1_0_0_1_n_n.rhsIdx (ix2 p t) ((contrEquiv1 dot_S256x2048_S2048x2048_S256x2048_1_0_0_1_n_n 2048 rfl rfl).symm k) = ix2 k t := funext fun a => Fin.ext (by
    match a with
    | ⟨0, _⟩ => exact (rhsW_0 _ _).trans hk
    | ⟨1, _⟩ => exact rhsW_1 _ _)
  rw [el, er]

/-! ## The block of the indicator array, the two bits -/

/-- The cast of the block to its own shape is the block. -/
theorem pay2_eq (v0 : FVec Ideal S256x2048 .bf16) : k0_pay2 (F := Ideal) v0 = v0 := by
  unfold k0_pay2
  exact shapeCast_self v0 _

section Bits
variable (i : grid0.Coords) (b : Fin 8) (hb : (i 0).val = b.val) (A : Cert.Spec.SA.Idx → EReal)
  (v0 : FVec Ideal S256x2048 .bf16) (v2 : FVec Ideal S2048x2048 .bf16)
  (h0 : ∀ (p : Fin 256) (k : Fin 2048), v0 (ix2 p k) = Cert.Spec.ind (Cert.Spec.joined A (Cert.Spec.row b p) k))
  (h2 : ∀ (k j : Fin 2048), v2 (ix2 k j) = Cert.Spec.ind (Cert.Spec.joined A k j))
include hb h0 h2

/-- "The block is positive" decides "joined". -/
theorem pay3_apply (p : Fin 256) (k : Fin 2048) :
    k0_pay3 (F := Ideal) v0 (ix2 p k) = bit (Cert.Spec.joined A (Cert.Spec.row b p) k) := by
  unfold k0_pay3
  show Ideal.cmp .ogt (k0_pay2 (F := Ideal) v0 (ix2 p k)) (Ideal.ofBits .bf16 0x0000#16) = _
  rw [pay2_eq, ofBits_zero_bf16, cmp_ogt_zero, h0]
  exact congrArg bit (propext (ind_pos_iff _))

/-- "Global row = column" on the words decides it on the numbers. -/
theorem pay4_apply (p : Fin 256) (k : Fin 2048) :
    k0_pay4 i (ix2 p k) = bit (Cert.Spec.row b p = k) := by
  unfold k0_pay4
  show IntOp.cmpi .eq (IntOp.addi (iota .tc S256x2048 32 [0] iota_S256x2048_d0_w32 (ix2 p k))
      (Scalar.muli (BitVec.ofNat 32 (i 0).val) 256#32)) (iota .tc S256x2048 32 [1] iota_S256x2048_d1_w32 (ix2 p k)) = _
  rw [iota0_apply, iota1_apply, cmpi_eq_bit, hb]
  exact congrArg bit (propext (word_row_eq_iff p b k))

/-- The number of two-step walks, as the product of the block with the whole array gives it. -/
theorem walks_apply (p : Fin 256) (j : Fin 2048) :
    matmul dot_S256x2048_S2048x2048_S256x2048_1_0_0_1_n_n none (k0_pay2 (F := Ideal) v0)
        (shapeCast S2048x2048 v2 shapeCasts_S2048x2048_S2048x2048) (constant (F := Ideal) S256x2048 .f32 0x00000000#32) (ix2 p j)
      = Cert.Spec.walks A (Cert.Spec.row b p) j := by
  rw [pay2_eq, shapeCast_self, matmulW_apply]
  unfold Cert.Spec.walks
  exact Finset.sum_congr rfl fun k _ => by rw [h0, h2]

/-- The first-stage indicator block, as the kernel computes it: joined and off the diagonal. -/
def ind1 : FVec Ideal S256x2048 .f32 :=
  sitofp .f32 (extui 32 (andi (k0_pay3 (F := Ideal) v0) (xori (k0_pay4 i) (constantI S256x2048 1 1#1))) natLt_1_32)

theorem ind1_apply (p : Fin 256) (k : Fin 2048) : ind1 i v0 (ix2 p k) = Cert.Spec.near A (Cert.Spec.row b p) k := by
  show FloatOps.sitofp (F := Ideal) .f32
    ((IntOp.andi (k0_pay3 (F := Ideal) v0 (ix2 p k)) (IntOp.xori (k0_pay4 i (ix2 p k)) 1#1)).setWidth 32) = _
  rw [pay3_apply i b hb A v0 v2 h0 h2, pay4_apply i b hb A v0 v2 h0 h2, xori_bit_one, andi_bit, sitofp_extui_bit]
  rfl

/-- The second-stage indicator block: reached by a two-step walk, not joined, off the diagonal. -/
def ind2 : FVec Ideal S256x2048 .f32 :=
  sitofp .f32 (extui 32 (andi (andi
    (cmpf .ogt (matmul dot_S256x2048_S2048x2048_S256x2048_1_0_0_1_n_n none (k0_pay2 (F := Ideal) v0)
        (shapeCast S2048x2048 v2 shapeCasts_S2048x2048_S2048x2048) (constant (F := Ideal) S256x2048 .f32 0x00000000#32))
      (broadcast S256x2048 (Scalar.ofBits (F := Ideal) .f32 0x00000000#32)))
    (xori (k0_pay3 (F := Ideal) v0) (constantI S256x2048 1 1#1)))
    (xori (k0_pay4 i) (constantI S256x2048 1 1#1))) natLt_1_32)

theorem ind2_apply (p : Fin 256) (j : Fin 2048) : ind2 i v0 v2 (ix2 p j) = Cert.Spec.next A (Cert.Spec.row b p) j := by
  show FloatOps.sitofp (F := Ideal) .f32
    ((IntOp.andi (IntOp.andi
      (Ideal.cmp .ogt (matmul dot_S256x2048_S2048x2048_S256x2048_1_0_0_1_n_n none (k0_pay2 (F := Ideal) v0)
        (shapeCast S2048x2048 v2 shapeCasts_S2048x2048_S2048x2048) (constant (F := Ideal) S256x2048 .f32 0x00000000#32) (ix2 p j))
        (Ideal.ofBits .f32 0x00000000#32))
      (IntOp.xori (k0_pay3 (F := Ideal) v0 (ix2 p j)) 1#1))
      (IntOp.xori (k0_pay4 i (ix2 p j)) 1#1)).setWidth 32) = _
  rw [walks_apply i b hb A v0 v2 h0 h2, Ideal.ofBits_zero_f32, cmp_ogt_zero, pay3_apply i b hb A v0 v2 h0 h2,
    pay4_apply i b hb A v0 v2 h0 h2, xori_bit_one, xori_bit_one, andi_bit, andi_bit, sitofp_extui_bit, and_assoc]
  rfl

end Bits

/-! ## A stage: the indicator block divided by its row counts, applied to the series -/

/-- What the kernel does with an indicator block `h`: sum its lanes, take the larger of the sum and one, divide each row by
    that, and multiply by the series. -/
def stage (h : FVec Ideal S256x2048 .f32) (v37 : FVec Ideal S2048x256 .f32) : FVec Ideal S256x256 .f32 :=
  matmul dot_S256x2048_S2048x256_S256x256_1_0_0_1_n_n none
    (divf h (broadcastTo S256x2048
      (maximumf (shapeCast S256x1 (multiReduction (F := Ideal) .add [1] S256 h 0x00000000#32 reduces_S256x2048_S256 (.inl rfl) rfl)
          shapeCasts_S256_S256x1)
        (broadcast S256x1 (Scalar.ofBits (F := Ideal) .f32 0x3F800000#32)))
      broadcasts_S256x1_S256x2048))
    v37 (constant (F := Ideal) S256x256 .f32 0x00000000#32)

theorem stage_apply (h : FVec Ideal S256x2048 .f32) (v37 : FVec Ideal S2048x256 .f32) (p t : Fin 256) :
    stage h v37 (ix2 p t)
      = ∑ k : Fin 2048, Ideal.div (h (ix2 p k)) (max (∑ k' : Fin 2048, h (ix2 p k')) 1) * v37 (ix2 k t) := by
  unfold stage
  rw [matmulX_apply]
  refine Finset.sum_congr rfl fun k _ => ?_
  rw [divf_apply, broadcastTo_col_apply, maximumf_apply, shapeCast_col_apply, laneSum_apply, broadcast_apply]
  show Ideal.div _ (max _ (Ideal.ofBits .f32 0x3F800000#32)) * _ = _
  rw [ofBits_one_f32]

/-- A stage whose block holds block `b` of an indicator array `g`, over a block holding the series, is the mean of the
    series over `g`'s row. -/
theorem stage_eq_mean (h : FVec Ideal S256x2048 .f32) (v37 : FVec Ideal S2048x256 .f32) (X : Cert.Spec.SX.Idx → EReal)
    (g : Fin 2048 → Fin 2048 → EReal) (b : Fin 8) (p t : Fin 256)
    (hh : ∀ k : Fin 2048, h (ix2 p k) = g (Cert.Spec.row b p) k)
    (h37 : ∀ (k : Fin 2048) (t : Fin 256), v37 (ix2 k t) = X (ix2 k t)) :
    stage h v37 (ix2 p t) = Cert.Spec.mean X g (Cert.Spec.row b p) t := by
  rw [stage_apply]
  unfold Cert.Spec.mean Cert.Spec.cnt
  simp only [hh, h37]

/-! ## The final combination -/

theorem pay1_apply (v38 v39 : FVec Ideal S256x256 .f32) (v40 : Vec Ideal S256x256 .f32)
    (v42 v47 v53 v60 v65 v71 : Vec Ideal S1x1 .f32) (p : Fin 256) (q : Fin 254) :
    k0_pay1 (F := Ideal) v38 v39 v40 v42 v47 v53 v60 v65 v71 (ix2 p q)
      = ((v42 (ix2 0 0) * v40 (ix2 p (Cert.Spec.lag1 q)) + v47 (ix2 0 0) * v38 (ix2 p (Cert.Spec.lag1 q)))
          + v53 (ix2 0 0) * v39 (ix2 p (Cert.Spec.lag1 q)))
        + ((v60 (ix2 0 0) * v40 (ix2 p (Cert.Spec.lag2 q)) + v65 (ix2 0 0) * v38 (ix2 p (Cert.Spec.lag2 q)))
          + v71 (ix2 0 0) * v39 (ix2 p (Cert.Spec.lag2 q))) := by
  unfold k0_pay1
  simp only [addf_apply, mulf_apply, broadcast_apply, slice1_apply, slice0_apply, extract00]
  show Ideal.ofBits .f32 0x00000000#32 + _ + _ = _
  rw [Ideal.ofBits_zero_f32, zero_add]

/-! ## The payload at an index -/

theorem pay_at (i : grid0.Coords) (b : Fin 8) (hb : (i 0).val = b.val)
    (X : Cert.Spec.SX.Idx → EReal) (A : Cert.Spec.SA.Idx → EReal) (a b₀ b₁ : Cert.Spec.SP.Idx → EReal)
    (v0 : Vec Ideal S256x2048 .bf16) (v2 : Vec Ideal S2048x2048 .bf16) (v37 : Vec Ideal S2048x256 .f32)
    (v40 : Vec Ideal S256x256 .f32) (v42 v47 v53 v60 v65 v71 : Vec Ideal S1x1 .f32)
    (h0 : ∀ (p : Fin 256) (k : Fin 2048), v0 (ix2 p k) = Cert.Spec.ind (Cert.Spec.joined A (Cert.Spec.row b p) k))
    (h2 : ∀ (k j : Fin 2048), v2 (ix2 k j) = Cert.Spec.ind (Cert.Spec.joined A k j))
    (h37 : ∀ (k : Fin 2048) (t : Fin 256), v37 (ix2 k t) = X (ix2 k t))
    (h40 : ∀ (p : Fin 256) (t : Fin 256), v40 (ix2 p t) = X (ix2 (Cert.Spec.row b p) t))
    (h42 : v42 (ix2 0 0) = a (ix1 0)) (h47 : v47 (ix2 0 0) = b₀ (ix1 0)) (h53 : v53 (ix2 0 0) = b₁ (ix1 0))
    (h60 : v60 (ix2 0 0) = a (ix1 1)) (h65 : v65 (ix2 0 0) = b₀ (ix1 1)) (h71 : v71 (ix2 0 0) = b₁ (ix1 1))
    (p : Fin 256) (q : Fin 254) :
    k0_pay1 (F := Ideal) (k0_pay5 i v0 v37) (k0_pay6 i v0 v2 v37) v40 v42 v47 v53 v60 v65 v71 (ix2 p q)
      = Cert.Spec.out X A a b₀ b₁ (Cert.Spec.row b p) q := by
  have e5 : ∀ t : Fin 256, k0_pay5 (F := Ideal) i v0 v37 (ix2 p t)
      = Cert.Spec.mean X (Cert.Spec.near A) (Cert.Spec.row b p) t := fun t =>
    stage_eq_mean (ind1 i v0) v37 X (Cert.Spec.near A) b p t (fun k => ind1_apply i b hb A v0 v2 h0 h2 p k) h37
  have e6 : ∀ t : Fin 256, k0_pay6 (F := Ideal) i v0 v2 v37 (ix2 p t)
      = Cert.Spec.mean X (Cert.Spec.next A) (Cert.Spec.row b p) t := fun t =>
    stage_eq_mean (ind2 i v0 v2) v37 X (Cert.Spec.next A) b p t (fun k => ind2_apply i b hb A v0 v2 h0 h2 p k) h37
  rw [pay1_apply, e5, e5, e6, e6, h40, h40, h42, h47, h53, h60, h65, h71]
  rfl

end Cert.KernelPay

end
-- ==== Proof.HostPrefix.lean ====
/-
  What the host operations before the launch leave, read at one index over the extended reals: the indicator array
  holds, at row `i` and column `k`, the indicator of "the weight `A[i,k]` is not zero", and the coefficient table's
  three rows are the three coefficient vectors.
-/
import proofs.«112727_g65996467471051_cont_9to1c4b_428_2_alg».proof.Proof.FrameI
import proofs.«112727_g65996467471051_cont_9to1c4b_428_2_alg».proof.Proof.Spec
import Idealize.ShloMosaic.Lib.Pipeline.Value
import Idealize.ShloMosaic.PureOps.Ideal.Laws

noncomputable section

open scoped BigOperators Classical

namespace Cert.HostPrefix

open Idealize.ShloMosaic Idealize.ShloMosaic.TcCoe Idealize.ShloMosaic.ValueIdx Idealize.SL.Sem
open Cert.KernelIdeal Cert.KernelIdeal.Gen Cert.KernelIdeal.Fr

/-! ### Words and indicators -/

/-- A one-bit word that is `1` exactly when `p` holds reads, as an unsigned number, the indicator of `p`. -/
theorem bit_ind {b : BitVec 1} {p : Prop} (h : b = 1#1 ↔ p) : (((b.toNat : ℝ)) : EReal) = Cert.Spec.ind p := by
  rcases BitVec.eq_zero_or_eq_one b with h0 | h1
  · subst h0
    have hp : ¬p := fun hp => absurd (h.mpr hp) (by decide)
    simp [Cert.Spec.ind, hp]
  · subst h1
    have hp : p := h.mp rfl
    simp [Cert.Spec.ind, hp]

theorem ofBool_one {b : Bool} : BitVec.ofBool b = 1#1 ↔ b = true := by cases b <;> decide

/-- "Not equal to the scalar zero spread over the array", as numbers, is the indicator of a weight that is not zero. -/
theorem ne_zero_at (A : (⟨S2048x2048, .f32⟩ : BufTy).Contents (Elt Ideal)) (dims : Fin S_.rank → Fin S2048x2048.rank)
    (h : S_.BroadcastsInDim S2048x2048 dims) (i k : Fin 2048) :
    (uitofp (F := Ideal) .bf16 (cmpf (F := Ideal) .une A (broadcastInDim S2048x2048 dims h (constant (F := Ideal) S_ .f32 0x00000000#32)))
      : S2048x2048.Idx → EReal) (ix2 i k) = Cert.Spec.ind (Cert.Spec.joined A i k) := by
  refine bit_ind ?_
  rw [cmpf_apply, broadcastInDim_apply dims h _ (ix2 i k) ix0 (fun a => a.elim0), constant_apply, Ideal.ofBits_zero_f32,
    Ideal.cmpf_def]
  unfold Ideal.cmp
  rw [ofBool_one, decide_eq_true_iff]
  exact Iff.rfl

/-! ### The coefficient table: three vectors of two entries, each as a row, laid one under the other -/

/-- A vector of two entries spread as the one row of a 1 × 2 array reads, at column `s`, its entry `s`. -/
theorem row_at {α : Type} (v : S2.Idx → α) (dims : Fin S2.rank → Fin S1x2.rank) (hd : dims 0 = 1)
    (h : S2.BroadcastsInDim S1x2 dims) (s : Fin 2) : broadcastInDim S1x2 dims h v (ix2 (0 : Fin 1) s) = v (ix1 s) :=
  broadcastInDim_apply dims h v (ix2 (0 : Fin 1) s) (ix1 s) (fun a => match a with
    | ⟨0, _⟩ => by
      show s.val = if (2 : Nat) = 1 then 0 else ((ix2 (0 : Fin 1) s : S1x2.Idx) (dims 0)).val
      rw [if_neg (by decide), hd])

/-- Three 1 × 2 rows laid one under the other: row `r` of the 3 × 2 array is the `r`-th of them. -/
theorem rows3_at {α : Type} (u0 u1 u2 : S1x2.Idx → α)
    (h : Shape.Concatenates (([⟨S1x2, u0⟩, ⟨S1x2, u1⟩, ⟨S1x2, u2⟩] : List ((s : Shape) × (s.Idx → α))).map (·.1)) S3x2 0) (s : Fin 2) :
    concatenate S3x2 0 [⟨S1x2, u0⟩, ⟨S1x2, u1⟩, ⟨S1x2, u2⟩] h (ix2 (0 : Fin 3) s) = u0 (ix2 (0 : Fin 1) s)
    ∧ concatenate S3x2 0 [⟨S1x2, u0⟩, ⟨S1x2, u1⟩, ⟨S1x2, u2⟩] h (ix2 (1 : Fin 3) s) = u1 (ix2 (0 : Fin 1) s)
    ∧ concatenate S3x2 0 [⟨S1x2, u0⟩, ⟨S1x2, u1⟩, ⟨S1x2, u2⟩] h (ix2 (2 : Fin 3) s) = u2 (ix2 (0 : Fin 1) s) := by
  have hi : ∀ r : Fin 3, ∀ b : Fin S1x2.rank, b.cast (rfl : S1x2.rank = S3x2.rank) ≠ (0 : Fin S3x2.rank) →
      ((ix2 (0 : Fin 1) s : S1x2.Idx) b).val = ((ix2 r s : S3x2.Idx) (b.cast rfl)).val := fun r b hb => by
    match b with
    | ⟨0, _⟩ => exact absurd rfl hb
    | ⟨1, _⟩ => rfl
  refine ⟨?_, ?_, ?_⟩
  · exact concatenate_apply_piece 0 _ h _ 0 (by show (0 : ℕ) < 3; decide) S1x2 u0 rfl rfl 0 rfl _ (hi 0) rfl
  · exact concatenate_apply_piece 0 _ h _ 1 (by show (1 : ℕ) < 3; decide) S1x2 u1 rfl rfl 1 rfl _ (hi 1) rfl
  · exact concatenate_apply_piece 0 _ h _ 2 (by show (2 : ℕ) < 3; decide) S1x2 u2 rfl rfl 2 rfl _ (hi 2) rfl

/-! ### What the launch finds -/

section Launch
open Idealize.ShloMosaic.StableHlo

variable {nD' : Nat} {τ' : Topo} {sig' : RefSig} {Val : EltTy → Type}

/-- An operation of three operands writes its function of the three operands' contents, each read at its own buffer. -/
theorem nary3_result {x a b y : Ref sig' .tc}
    (f : ((k : Fin 3) → ((![x, a, b] : Fin 3 → Ref sig' .tc) k).ty.Contents Val) → y.ty.Contents Val) (hxs hy)
    (G : Valuation τ' sig' Val) :
    (nary (τ := τ') ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

end Launch

variable (m : (ℓ : Loc nD τ sig) → Buf (Elt Ideal) ℓ)

/-- The indicator array at an index. -/
theorem joined_at (c : Dev nD) (i k : Fin 2048) :
    (V m c main_v2 : S2048x2048.Idx → EReal) (ix2 i k)
      = Cert.Spec.ind (Cert.Spec.joined (m ((c : Thread nD τ).loc main_arg1)) i k) := by
  have e : (V m c main_v2 : S2048x2048.Idx → EReal)
      = uitofp (F := Ideal) .bf16 (cmpf (F := Ideal) .une (m ((c : Thread nD τ).loc main_arg1))
          (broadcastInDim S2048x2048 ![] Facts₀.bcast_S_S2048x2048 (constant (F := Ideal) S_ .f32 0x00000000#32))) := by
    dsimp only [V, hostOps0]; after_results
  rw [e]
  exact ne_zero_at _ _ _ i k

/-- The coefficient table as the launch finds it: the three coefficient vectors as rows, one under the other. -/
theorem table_eq (c : Dev nD) : (V m c main_v6 : S3x2.Idx → EReal)
    = concatenate S3x2 0
        [⟨S1x2, broadcastInDim S1x2 ![1] Facts₀.bcast_S2_S1x2_1 (m ((c : Thread nD τ).loc main_arg2) : S2.Idx → EReal)⟩,
         ⟨S1x2, broadcastInDim S1x2 ![1] Facts₀.bcast_S2_S1x2_1 (m ((c : Thread nD τ).loc main_arg3) : S2.Idx → EReal)⟩,
         ⟨S1x2, broadcastInDim S1x2 ![1] Facts₀.bcast_S2_S1x2_1 (m ((c : Thread nD τ).loc main_arg4) : S2.Idx → EReal)⟩]
        Facts₀.concatenates_S1x2_S1x2_S1x2_S3x2_d0 := by
  dsimp only [V, hostOps0]
  simp only [StableHlo.after_cons, StableHlo.after_nil]
  rw [nary3_result]
  repeat (first
    | rw [StableHlo.unary_result]
    | (rw [StableHlo.unary_result_ne]; rotate_left; decide)
    | (rw [StableHlo.binary_result_ne]; rotate_left; decide)
    | (rw [StableHlo.nullary_result_ne]; rotate_left; decide))
  rfl

/-- The coefficient table's six entries. -/
theorem coef_at (c : Dev nD) :
    (V m c main_v6 : S3x2.Idx → EReal) (ix2 0 0) = (m ((c : Thread nD τ).loc main_arg2) : S2.Idx → EReal) (ix1 0)
    ∧ (V m c main_v6 : S3x2.Idx → EReal) (ix2 1 0) = (m ((c : Thread nD τ).loc main_arg3) : S2.Idx → EReal) (ix1 0)
    ∧ (V m c main_v6 : S3x2.Idx → EReal) (ix2 2 0) = (m ((c : Thread nD τ).loc main_arg4) : S2.Idx → EReal) (ix1 0)
    ∧ (V m c main_v6 : S3x2.Idx → EReal) (ix2 0 1) = (m ((c : Thread nD τ).loc main_arg2) : S2.Idx → EReal) (ix1 1)
    ∧ (V m c main_v6 : S3x2.Idx → EReal) (ix2 1 1) = (m ((c : Thread nD τ).loc main_arg3) : S2.Idx → EReal) (ix1 1)
    ∧ (V m c main_v6 : S3x2.Idx → EReal) (ix2 2 1) = (m ((c : Thread nD τ).loc main_arg4) : S2.Idx → EReal) (ix1 1) := by
  rw [table_eq m c]
  refine ⟨(rows3_at _ _ _ _ 0).1.trans ?_, (rows3_at _ _ _ _ 0).2.1.trans ?_, (rows3_at _ _ _ _ 0).2.2.trans ?_,
    (rows3_at _ _ _ _ 1).1.trans ?_, (rows3_at _ _ _ _ 1).2.1.trans ?_, (rows3_at _ _ _ _ 1).2.2.trans ?_⟩ <;>
    exact row_at _ _ rfl _ _

end Cert.HostPrefix

end
-- ==== Proof.KernelValue.lean ====
/-
  The pipelined program's result array. At grid point `t` the body stores, at row `p` and column `q` of the output
  block, the specification's value at row `256·t + p`; the eight blocks written back tile the 2048 rows, so the
  array ends holding the specification's array.
-/
import proofs.«112727_g65996467471051_cont_9to1c4b_428_2_alg».proof.Proof.FrameI
import proofs.«112727_g65996467471051_cont_9to1c4b_428_2_alg».proof.Proof.KernelPay
import proofs.«112727_g65996467471051_cont_9to1c4b_428_2_alg».proof.Proof.HostPrefix
import proofs.«112727_g65996467471051_cont_9to1c4b_428_2_alg».proof.Proof.Spec
import Idealize.ShloMosaic.Lib.Pipeline.Value

set_option maxRecDepth 16384

noncomputable section

open scoped BigOperators Classical

namespace Cert.KernelValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr

variable (m : (ℓ : Loc nD τ sig) → Buf (Elt Ideal) ℓ) (ρ : Dev nD → PrngReg)

/-- The specification's array of the program's five argument arrays as launched. -/
abbrev spec (c : Dev nD) : Buf (Elt Ideal) ((c.tc : Thread nD τ).loc main_v7) :=
  Cert.Spec.G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-! ## The windows' index maps, decided over the eight grid points -/

theorem hz : (![0, 0] : Fin 2 → Nat) = fun _ => 0 := funext fun a => by fin_cases a <;> rfl

/-- The coefficient table, the whole indicator array and the whole series are read at block index zero; the indicator
    array's block, the series' block and the result's block sit at block row `t`; and the grid coordinate is `t`. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ (grid0.coords t 0).val = t.val ∧ t.val < 8 :=
  (by decide +kernel : ∀ t : Fin grid0.N, _)

/-! ## Each input block, read where its window's rectangle says -/

section Blocks
variable (c : Dev nD) (t : Fin cfg0.N) (ht : t.val < 8)

/-- The coefficient table's block is the table. -/
theorem coef_blk (r : Fin 3) (s : Fin 2) :
    (iblk m c 0 t : S3x2.Idx → EReal) (ix2 r s) = (V m c main_v6 : S3x2.Idx → EReal) (ix2 r s) := by
  obtain ⟨e0, e1, -⟩ := idx_facts t
  have e : ((cfg0.win 0).blk t).view.emb (ix2 r s) = (ix2 r s : S3x2.Idx) := by
    funext a; apply Fin.ext
    match a with
    | ⟨0, _⟩ => show win0_0.index t (0 : Fin 2) * 3 + 1 * r.val = r.val; omega
    | ⟨1, _⟩ => show win0_0.index t (1 : Fin 2) * 2 + 1 * s.val = s.val; omega
  show (V m c main_v6 : S3x2.Idx → EReal) (((cfg0.win 0).blk t).view.emb (ix2 r s)) = _
  rw [e]

/-- The indicator array's block at point `t` holds rows `256·t + p`. -/
theorem joined_blk (p : Fin 256) (k : Fin 2048) :
    (iblk m c 1 t : S256x2048.Idx → EReal) (ix2 p k)
      = (V m c main_v2 : S2048x2048.Idx → EReal) (ix2 (Cert.Spec.row ⟨t.val, ht⟩ p) k) := by
  obtain ⟨-, -, e0, e1, -⟩ := idx_facts t
  have e : ((cfg0.win 1).blk t).view.emb (ix2 p k) = (ix2 (Cert.Spec.row ⟨t.val, ht⟩ p) k : S2048x2048.Idx) := by
    funext a; apply Fin.ext
    match a with
    | ⟨0, _⟩ => show win0_1.index t (0 : Fin 2) * 256 + 1 * p.val = 256 * t.val + p.val; omega
    | ⟨1, _⟩ => show win0_1.index t (1 : Fin 2) * 2048 + 1 * k.val = k.val; omega
  show (V m c main_v2 : S2048x2048.Idx → EReal) (((cfg0.win 1).blk t).view.emb (ix2 p k)) = _
  rw [e]

/-- The whole indicator array's window holds the array. -/
theorem joined_whole (k j : Fin 2048) :
    (iblk m c 2 t : S2048x2048.Idx → EReal) (ix2 k j) = (V m c main_v2 : S2048x2048.Idx → EReal) (ix2 k j) := by
  obtain ⟨-, -, -, -, e0, e1, -⟩ := idx_facts t
  have e : ((cfg0.win 2).blk t).view.emb (ix2 k j) = (ix2 k j : S2048x2048.Idx) := by
    funext a; apply Fin.ext
    match a with
    | ⟨0, _⟩ => show win0_2.index t (0 : Fin 2) * 2048 + 1 * k.val = k.val; omega
    | ⟨1, _⟩ => show win0_2.index t (1 : Fin 2) * 2048 + 1 * j.val = j.val; omega
  show (V m c main_v2 : S2048x2048.Idx → EReal) (((cfg0.win 2).blk t).view.emb (ix2 k j)) = _
  rw [e]

/-- The whole series' window holds the series. -/
theorem series_whole (k : Fin 2048) (u : Fin 256) :
    (iblk m c 3 t : S2048x256.Idx → EReal) (ix2 k u) = (V m c main_arg0 : S2048x256.Idx → EReal) (ix2 k u) := by
  obtain ⟨-, -, -, -, -, -, e0, e1, -⟩ := idx_facts t
  have e : ((cfg0.win 3).blk t).view.emb (ix2 k u) = (ix2 k u : S2048x256.Idx) := by
    funext a; apply Fin.ext
    match a with
    | ⟨0, _⟩ => show win0_3.index t (0 : Fin 2) * 2048 + 1 * k.val = k.val; omega
    | ⟨1, _⟩ => show win0_3.index t (1 : Fin 2) * 256 + 1 * u.val = u.val; omega
  show (V m c main_arg0 : S2048x256.Idx → EReal) (((cfg0.win 3).blk t).view.emb (ix2 k u)) = _
  rw [e]

/-- The series' block at point `t` holds rows `256·t + p`. -/
theorem series_blk (p u : Fin 256) :
    (iblk m c 4 t : S256x256.Idx → EReal) (ix2 p u)
      = (V m c main_arg0 : S2048x256.Idx → EReal) (ix2 (Cert.Spec.row ⟨t.val, ht⟩ p) u) := by
  obtain ⟨-, -, -, -, -, -, -, -, e0, e1, -⟩ := idx_facts t
  have e : ((cfg0.win 4).blk t).view.emb (ix2 p u) = (ix2 (Cert.Spec.row ⟨t.val, ht⟩ p) u : S2048x256.Idx) := by
    funext a; apply Fin.ext
    match a with
    | ⟨0, _⟩ => show win0_4.index t (0 : Fin 2) * 256 + 1 * p.val = 256 * t.val + p.val; omega
    | ⟨1, _⟩ => show win0_4.index t (1 : Fin 2) * 256 + 1 * u.val = u.val; omega
  show (V m c main_arg0 : S2048x256.Idx → EReal) (((cfg0.win 4).blk t).view.emb (ix2 p u)) = _
  rw [e]

end Blocks

/-! ## The output buffer after the body, at an index -/

/-- A one-element load of the coefficient table reads the entry at its offset. -/
theorem ld_coef (x0 : Vec Ideal S3x2 .f32) (r : Fin 3) (s : Fin 2) (inb : ∀ a, (![r.val, s.val] : Fin 2 → Nat) a + S1x1.size a ≤ S3x2.size a) :
    View.ld x0 (Rect.unit (s := S3x2) ![r.val, s.val] S1x1.size inb) (ix2 0 0) = x0 (ix2 r s) := by
  show x0 ((Rect.unit (s := S3x2) ![r.val, s.val] S1x1.size inb).emb (ix2 0 0)) = _
  refine congrArg x0 (funext fun a => Fin.ext ?_)
  rw [Rect.emb_apply]
  match a with
  | ⟨0, _⟩ => show r.val + 1 * 0 = r.val; omega
  | ⟨1, _⟩ => show s.val + 1 * 0 = s.val; omega

/-- What the body leaves in the output buffer at grid coordinates `i`, when its five input buffers hold block `b` of the
    arrays, is block `b` of the specification's array. -/
theorem out5_at (i : grid0.Coords) (b : Fin 8) (hb : (i 0).val = b.val)
    (X : Cert.Spec.SX.Idx → EReal) (A : Cert.Spec.SA.Idx → EReal) (a b₀ b₁ : Cert.Spec.SP.Idx → EReal)
    (x0 : Vec Ideal S3x2 .f32) (x1 : Vec Ideal S256x2048 .bf16) (x2 : Vec Ideal S2048x2048 .bf16)
    (x3 : Vec Ideal S2048x256 .f32) (x4 : Vec Ideal S256x256 .f32)
    (h1 : ∀ (p : Fin 256) (k : Fin 2048), x1 (ix2 p k) = Cert.Spec.ind (Cert.Spec.joined A (Cert.Spec.row b p) k))
    (h2 : ∀ (k j : Fin 2048), x2 (ix2 k j) = Cert.Spec.ind (Cert.Spec.joined A k j))
    (h3 : ∀ (k : Fin 2048) (u : Fin 256), x3 (ix2 k u) = X (ix2 k u))
    (h4 : ∀ (p : Fin 256) (u : Fin 256), x4 (ix2 p u) = X (ix2 (Cert.Spec.row b p) u))
    (c00 : x0 (ix2 0 0) = a (ix1 0)) (c10 : x0 (ix2 1 0) = b₀ (ix1 0)) (c20 : x0 (ix2 2 0) = b₁ (ix1 0))
    (c01 : x0 (ix2 0 1) = a (ix1 1)) (c11 : x0 (ix2 1 1) = b₀ (ix1 1)) (c21 : x0 (ix2 2 1) = b₁ (ix1 1))
    (p : Fin 256) (q : Fin 254) :
    out5 (F := Ideal) i x0 x1 x2 x3 x4 (ix2 p q) = Cert.Spec.out X A a b₀ b₁ (Cert.Spec.row b p) q := by
  unfold out5
  rw [View.canon_unit_zero hz]
  rw [View.ld_unit_zero (S := S256x2048) hz, View.ld_unit_zero (S := S2048x2048) hz, View.ld_unit_zero (S := S2048x256) hz,
    View.ld_unit_zero (S := S256x256) hz]
  exact Cert.KernelPay.pay_at i b hb X A a b₀ b₁ x1 x2 x3 x4 _ _ _ _ _ _ h1 h2 h3 h4
    ((ld_coef x0 0 0 _).trans c00) ((ld_coef x0 1 0 _).trans c10) ((ld_coef x0 2 0 _).trans c20)
    ((ld_coef x0 0 1 _).trans c01) ((ld_coef x0 1 1 _).trans c11) ((ld_coef x0 2 1 _).trans c21) p q

/-! ## What each point writes back, and the array after the run -/

/-- WHAT POINT `t` WRITES BACK is block `t` of the specification's array. -/
theorem flushed_eq (c : Dev nD) (t : Fin cfg0.N) :
    (dats m 0 c).flushed 5 t = ((cfg0.win 5).blk t).view.read (Elt Ideal) (spec m c) := by
  show (cfg0.win 5).cut (grid0.coords t) ((dats m 0 c).after 5 t) = _
  rw [after5]
  obtain ⟨-, -, -, -, -, -, -, -, -, -, e50, e51, hb, ht⟩ := idx_facts t
  obtain ⟨k00, k10, k20, k01, k11, k21⟩ := Cert.HostPrefix.coef_at m c
  funext y
  have hy0 : (y 0).val < 256 := (y 0).isLt
  have hy1 : (y 1).val < 254 := (y 1).isLt
  have eL : (cfg0.win 5).xinj (grid0.coords t) y = (ix2 (⟨(y 0).val, hy0⟩ : Fin 256) (⟨(y 1).val, hy1⟩ : Fin 254) : S256x254.Idx) := by
    funext a; apply Fin.ext
    match a with
    | ⟨0, _⟩ => rfl
    | ⟨1, _⟩ => rfl
  have eR : ((cfg0.win 5).blk t).view.emb y
      = (ix2 (Cert.Spec.row ⟨t.val, ht⟩ ⟨(y 0).val, hy0⟩) (⟨(y 1).val, hy1⟩ : Fin 254) : S2048x254.Idx) := by
    funext a; apply Fin.ext
    match a with
    | ⟨0, _⟩ => show win0_5.index t (0 : Fin 2) * 256 + 1 * (y 0).val = 256 * t.val + (y 0).val; omega
    | ⟨1, _⟩ => show win0_5.index t (1 : Fin 2) * 254 + 1 * (y 1).val = (y 1).val; omega
  show out5 (F := Ideal) (grid0.coords t) (iblk m c 0 t) (iblk m c 1 t) (iblk m c 2 t) (iblk m c 3 t) (iblk m c 4 t)
      ((cfg0.win 5).xinj (grid0.coords t) y)
    = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 5).blk t).view.emb y)
  rw [eL, eR, Cert.Spec.G_apply]
  exact out5_at (grid0.coords t) ⟨t.val, ht⟩ hb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (iblk m c 0 t) (iblk m c 1 t) (iblk m c 2 t) (iblk m c 3 t) (iblk m c 4 t)
    (fun p k => (joined_blk m c t ht p k).trans (Cert.HostPrefix.joined_at m c _ k))
    (fun k j => (joined_whole m c t k j).trans (Cert.HostPrefix.joined_at m c k j))
    (fun k u => (series_whole m c t k u).trans (congrFun (V_main_arg0 m c) (ix2 k u)))
    (fun p u => (series_blk m c t ht p u).trans (congrFun (V_main_arg0 m c) (ix2 (Cert.Spec.row ⟨t.val, ht⟩ p) u)))
    ((coef_blk m c t 0 0).trans k00) ((coef_blk m c t 1 0).trans k10) ((coef_blk m c t 2 0).trans k20)
    ((coef_blk m c t 0 1).trans k01) ((coef_blk m c t 1 1).trans k11) ((coef_blk m c t 2 1).trans k21)
    ⟨(y 0).val, hy0⟩ ⟨(y 1).val, hy1⟩

/-- An index of the result array is in point `t`'s block iff each coordinate is in the block's range on its axis. -/
theorem mem_blk (t : Fin cfg0.N) (i : S2048x254.Idx) :
    i ∈ ((cfg0.win 5).blk t).view.set ↔ ∀ a : Fin 2, win0_5.index t a * S256x254.size a ≤ (i a).val
      ∧ (i a).val < win0_5.index t a * S256x254.size a + S256x254.size a := by
  show i ∈ ((View.whole main_v7).slice (win0_5.rect t)).set ↔ _
  rw [View.set_slice_whole, Rect.mem_set_unit]
  exact Iff.rfl

/-- The eight blocks tile the rows: row `r` is in the block of point `r / 256`. -/
theorem cover (i : S2048x254.Idx) :
    ∃ t : Fin cfg0.N, (cfg0.win 5).flush t = true ∧ i ∈ ((cfg0.win 5).blk t).view.set := by
  have hi0 : (i 0).val < 2048 := (i 0).isLt
  have hi1 : (i 1).val < 254 := (i 1).isLt
  have hN : grid0.N = 8 := N_0
  have hlt : (i 0).val / 256 < grid0.N := by omega
  obtain ⟨-, -, -, -, -, -, -, -, -, -, e50, e51, -⟩ := idx_facts ⟨(i 0).val / 256, hlt⟩
  refine ⟨⟨(i 0).val / 256, hlt⟩, flush0_5 _, ?_⟩
  rw [mem_blk]
  intro a
  match a with
  | ⟨0, _⟩ =>
    show win0_5.index ⟨(i 0).val / 256, hlt⟩ (0 : Fin 2) * 256 ≤ (i 0).val
      ∧ (i 0).val < win0_5.index ⟨(i 0).val / 256, hlt⟩ (0 : Fin 2) * 256 + 256
    have e : win0_5.index ⟨(i 0).val / 256, hlt⟩ (0 : Fin 2) = (i 0).val / 256 := e50
    omega
  | ⟨1, _⟩ =>
    show win0_5.index ⟨(i 0).val / 256, hlt⟩ (1 : Fin 2) * 254 ≤ (i 1).val
      ∧ (i 1).val < win0_5.index ⟨(i 0).val / 256, hlt⟩ (1 : Fin 2) * 254 + 254
    omega

/-- After the eight write-backs the result array holds the specification's array. -/
theorem final (c : Dev nD) : (dats m 0 c).arrAt 5 cfg0.N = spec m c :=
  (dats m 0 c).arrAt_eq_of_cover 5 (spec m c) (fun t _ => flushed_eq m c t) cover

/-- The run, with the result named and the argument arrays unchanged. -/
theorem run_value : θ_run (defs (F := Ideal)) (onTc (τ := τ) (main (F := Ideal))) ⟨m, fun _ => 0, ρ⟩ (fun r => ∀ c : Dev nD,
      r.2.mem ((c.tc : Thread nD τ).loc main_v7) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (final m c),
      (((h c).1 3).trans ((dats m 0 c).arrAt_in 3 rfl _)).trans ((A_eq m c 3).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.KernelValue

end
-- ==== Proof.RefSpec.lean ====
/-
  The reference program's result term, read at the extended reals, is the specification's array `Cert.Spec.G`.

  The program builds two 0/1 arrays from the weights. The first marks the pairs `(i, k)` with `A[i,k] ≠ 0` and `i ≠ k`:
  the specification's `near`. The second marks the pairs `(i, j)` that a two-step walk through the FIRST array reaches,
  outside the diagonal and outside the first array. The specification's `next` counts walks along joined pairs instead
  (a node may be joined to itself); the two marks agree, because between nodes that are not joined the two walk counts
  agree term by term (`walks_near`). Each array is divided row by row by its row sum floored at 1 and multiplied into
  the series read at lag one and at lag two: the specification's `mean`. The six products are added to zero in program
  order, which regroups into the specification's two sums by commutativity and associativity of addition.
-/
import proofs.«112727_g65996467471051_cont_9to1c4b_428_2_alg».proof.Proof.RefRead
import proofs.«112727_g65996467471051_cont_9to1c4b_428_2_alg».proof.Proof.Spec
import Idealize.ShloMosaic.Lib.IdealHost

noncomputable section

open scoped BigOperators Classical

namespace Cert.RefSpec

open Idealize.ShloMosaic Idealize.ShloMosaic.ValueIdx Cert.ReferenceIdeal Cert.ReferenceIdeal.ReadP

open Cert.Spec

/-! ### Words and indicators -/

/-- A one-bit word that is `1` exactly when `p` holds reads, as an unsigned number, the indicator of `p`. -/
theorem bit_ind {b : BitVec 1} {p : Prop} (h : b = 1#1 ↔ p) : (((b.toNat : ℝ)) : EReal) = ind p := by
  rcases BitVec.eq_zero_or_eq_one b with h0 | h1
  · subst h0
    have hp : ¬p := fun hp => absurd (h.mpr hp) (by decide)
    simp [ind, hp]
  · subst h1
    have hp : p := h.mp rfl
    simp [ind, hp]

theorem ind_false {p : Prop} (h : ¬p) : ind p = 0 := if_neg h

theorem ofBool_one {b : Bool} : BitVec.ofBool b = 1#1 ↔ b = true := by cases b <;> decide

/-- Two row numbers below 2048 are equal when their 32-bit words are. -/
theorem word_inj (i k : Fin 2048) : BitVec.ofNat 32 i.val = BitVec.ofNat 32 k.val ↔ i = k := by
  constructor
  · intro h
    have e := congrArg BitVec.toNat h
    simp only [BitVec.toNat_ofNat] at e
    have hi := i.isLt
    have hk := k.isLt
    rw [Nat.mod_eq_of_lt (by omega), Nat.mod_eq_of_lt (by omega)] at e
    exact Fin.ext e
  · rintro rfl; rfl

/-! ### The two neighbourhoods, with no program in them -/

section Walks
variable (A : SA.Idx → EReal)

/-- Between two nodes that are not joined, the walks through diagonal-free neighbourhoods are the walks along joined
    pairs: the two counts differ only in the middle nodes `k = i` and `k = j`, and there each term has a factor that is
    the indicator of `i` joined to `j`, or of a node being its own diagonal-free neighbour: zero on both sides. -/
theorem walks_near (i j : Fin 2048) (hJ : ¬joined A i j) :
    ∑ k : Fin 2048, near A i k * near A k j = walks A i j := by
  unfold walks
  refine Finset.sum_congr rfl fun k _ => ?_
  unfold near
  by_cases hki : i = k
  · subst hki
    rw [ind_false (fun h => h.2 rfl), zero_mul, ind_false hJ, mul_zero]
  · by_cases hkj : k = j
    · subst hkj
      rw [ind_false (fun h => hJ h.1), zero_mul, ind_false hJ, zero_mul]
    · congr 1
      · exact congrArg ind (propext ⟨fun h => h.1, fun h => ⟨h, hki⟩⟩)
      · exact congrArg ind (propext ⟨fun h => h.1, fun h => ⟨h, hkj⟩⟩)

/-- The second-stage indicator computed from diagonal-free walks is the specification's. -/
theorem next_of_near (i j : Fin 2048) :
    ind (0 < ∑ k : Fin 2048, near A i k * near A k j ∧ ¬(i = j ∨ (joined A i j ∧ i ≠ j))) = next A i j := by
  unfold next
  by_cases h : ¬joined A i j ∧ i ≠ j
  · rw [walks_near A i j h.1]
    exact congrArg ind (propext ⟨fun g => ⟨g.1, h⟩, fun g => ⟨g.1, fun o => o.elim (fun e => h.2 e) (fun e => h.1 e.1)⟩⟩)
  · rw [ind_false (fun g => h ⟨fun hj => g.2 (by
        by_cases e : i = j
        · exact Or.inl e
        · exact Or.inr ⟨hj, e⟩), fun e => g.2 (Or.inl e)⟩), ind_false (fun g => h g.2)]

end Walks

/-- The six products, added in the order the program adds them, regroup as the two lags' sums. -/
theorem regroup (p1 p2 p3 p4 p5 p6 : EReal) :
    (((((0 + p1) + p2) + p3) + p4) + p5) + p6 = ((p1 + p3) + p4) + ((p2 + p5) + p6) := by
  rw [zero_add]
  abel

/-! ### The two masks of the program -/

/-- The diagonal bit. -/
theorem diag_one (i k : Fin 2048) : val_main_v4 (F := Ideal) (ix2 i k) = 1#1 ↔ i = k := by
  rw [val_main_v4_apply, val_main_v3_apply, val_main_v0_apply, val_main_v2_apply, val_main_c_apply, val_main_v1_apply]
  show IntOp.cmpi .eq (BitVec.ofNat 32 i.val + 0#32) (BitVec.ofNat 32 k.val) = 1#1 ↔ i = k
  rw [BitVec.add_zero, IntOp.cmpi_eq]
  exact word_inj i k

section Masks
variable (A : (⟨S2048x2048, .f32⟩ : BufTy).Contents (Elt Ideal))

/-- The first mask's bit: joined, and off the diagonal. -/
theorem near_one (i k : Fin 2048) : val_main_v8 (F := Ideal) A (ix2 i k) = 1#1 ↔ joined A i k ∧ i ≠ k := by
  rw [val_main_v8_apply, IntOp.andi_eq_one, val_main_v7_apply, IntOp.not_eq_one, diag_one, val_main_v6_apply, val_main_v5_apply,
    val_main_cst_apply, Ideal.ofBits_def, Ideal.ofBits_zero_f32, Ideal.cmpf_def]
  unfold Ideal.cmp
  rw [ofBool_one, decide_eq_true_iff]
  exact Iff.rfl

/-- The first mask as numbers. -/
theorem near_val (i k : Fin 2048) : FloatOps.uitofp (F := Ideal) .f32 (val_main_v8 (F := Ideal) A (ix2 i k)) = near A i k :=
  bit_ind (near_one A i k)

theorem lidx12 (i j k : Fin 2048) : lidx_main_v12 (ix2 i j) k = ix2 i k :=
  funext fun a => Fin.ext (by match a with | ⟨0, _⟩ => rfl | ⟨1, _⟩ => rfl)
theorem ridx12 (i j k : Fin 2048) : ridx_main_v12 (ix2 i j) k = ix2 k j :=
  funext fun a => Fin.ext (by match a with | ⟨0, _⟩ => rfl | ⟨1, _⟩ => rfl)

/-- The product of the first mask with itself counts the two-step walks through diagonal-free neighbourhoods. -/
theorem reach_val (i j : Fin 2048) :
    val_main_v12 (F := Ideal) A (ix2 i j) = ∑ k : Fin 2048, near A i k * near A k j := by
  rw [val_main_v12_apply]
  refine Finset.sum_congr rfl fun k _ => ?_
  rw [lidx12, ridx12, val_main_v10_apply, val_main_v11_apply, near_val, near_val]

/-- The second mask's bit. -/
theorem next_one (i j : Fin 2048) : val_main_v16 (F := Ideal) A (ix2 i j) = 1#1 ↔
    (0 < ∑ k : Fin 2048, near A i k * near A k j ∧ ¬(i = j ∨ (joined A i j ∧ i ≠ j))) := by
  rw [val_main_v16_apply, IntOp.andi_eq_one, val_main_v15_apply, IntOp.not_eq_one, val_main_v9_apply, IntOp.ori_eq_one, diag_one,
    near_one, val_main_v14_apply, val_main_v13_apply, val_main_cst_0_apply, Ideal.ofBits_def, Ideal.ofBits_zero_f32, Ideal.cmpf_def,
    reach_val]
  unfold Ideal.cmp
  rw [ofBool_one, decide_eq_true_iff]

/-- The second mask as numbers. -/
theorem next_val (i j : Fin 2048) : FloatOps.uitofp (F := Ideal) .f32 (val_main_v16 (F := Ideal) A (ix2 i j)) = next A i j :=
  (bit_ind (next_one A i j)).trans (next_of_near A i j)

end Masks

/-! ### Row counts, normalized rows, and their products with the series -/

section Means
variable (X : (⟨S2048x256, .f32⟩ : BufTy).Contents (Elt Ideal)) (A : (⟨S2048x2048, .f32⟩ : BufTy).Contents (Elt Ideal))

/-- Column `j` of the columns `1 … 254` of the series is its column `j + 1`. -/
theorem series31 (k : Fin 2048) (j : Fin 254) : idx_main_v31 (ix2 k j) = ix2 k (lag1 j) :=
  Shape.idx_ext₂ rfl (Nat.add_comm 1 j.val)
theorem series19 (k : Fin 2048) (j : Fin 254) : idx_main_v19 (ix2 k j) = ix2 k (lag1 j) :=
  Shape.idx_ext₂ rfl (Nat.add_comm 1 j.val)
/-- Column `j` of the columns `0 … 253` of the series is its column `j`. -/
theorem series58 (k : Fin 2048) (j : Fin 254) : idx_main_v58 (ix2 k j) = ix2 k (lag2 j) :=
  Shape.idx_ext₂ rfl rfl
theorem series25 (k : Fin 2048) (j : Fin 254) : idx_main_v25 (ix2 k j) = ix2 k (lag2 j) :=
  Shape.idx_ext₂ rfl rfl

/-- The number of first-stage neighbours of row `i` (the sum the lag one term divides by, before the floor at 1). -/
theorem count33 (i : Fin 2048) : val_main_v33 (F := Ideal) A (ix1 i) = ∑ k : Fin 2048, near A i k := by
  rw [val_main_v33_apply, val_main_cst_2_apply, Ideal.ofBits_def, Ideal.ofBits_zero_f32, zero_add]
  refine Finset.sum_congr rfl fun k _ => ?_
  rw [show idx_main_v33 (ix1 i) k = ix2 i k from Shape.idx_ext₂ rfl rfl, val_main_v32_apply, near_val]

/-- The first-stage indicator row divided by its count, or by 1 when the row is empty. -/
theorem norm38 (i k : Fin 2048) : val_main_v38 (F := Ideal) A (ix2 i k) = Ideal.div (near A i k) (cnt (near A) i) := by
  rw [val_main_v38_apply, Ideal.hostDivf_def, val_main_v32_apply, near_val, val_main_v37_apply, val_main_v36_apply,
    Ideal.maximumf_def, val_main_v34_apply,
    show idx_main_v34 (idx_main_v37 (ix2 i k)) = ix1 i from funext fun a => Fin.ext (by match a with | ⟨0, _⟩ => rfl),
    count33, val_main_v35_apply, val_main_cst_3_apply, Ideal.ofBits_def, Ideal.ofBits_one_f32]
  rfl

/-- The normalized first-stage row applied to the series read at lag one. -/
theorem mean39 (i : Fin 2048) (j : Fin 254) : val_main_v39 (F := Ideal) X A (ix2 i j) = mean X (near A) i (lag1 j) := by
  rw [val_main_v39_apply]
  unfold mean
  refine Finset.sum_congr rfl fun k _ => ?_
  rw [show lidx_main_v39 (ix2 i j) k = ix2 i k from Shape.idx_ext₂ rfl rfl,
    show ridx_main_v39 (ix2 i j) k = ix2 k j from Shape.idx_ext₂ rfl rfl, norm38, val_main_v31_apply, series31]

/-- The number of second-stage neighbours of row `i` (the sum the lag one term divides by, before the floor at 1). -/
theorem count46 (i : Fin 2048) : val_main_v46 (F := Ideal) A (ix1 i) = ∑ k : Fin 2048, next A i k := by
  rw [val_main_v46_apply, val_main_cst_4_apply, Ideal.ofBits_def, Ideal.ofBits_zero_f32, zero_add]
  refine Finset.sum_congr rfl fun k _ => ?_
  rw [show idx_main_v46 (ix1 i) k = ix2 i k from Shape.idx_ext₂ rfl rfl, val_main_v45_apply, next_val]

/-- The second-stage indicator row divided by its count, or by 1 when the row is empty. -/
theorem norm51 (i k : Fin 2048) : val_main_v51 (F := Ideal) A (ix2 i k) = Ideal.div (next A i k) (cnt (next A) i) := by
  rw [val_main_v51_apply, Ideal.hostDivf_def, val_main_v45_apply, next_val, val_main_v50_apply, val_main_v49_apply,
    Ideal.maximumf_def, val_main_v47_apply,
    show idx_main_v47 (idx_main_v50 (ix2 i k)) = ix1 i from funext fun a => Fin.ext (by match a with | ⟨0, _⟩ => rfl),
    count46, val_main_v48_apply, val_main_cst_5_apply, Ideal.ofBits_def, Ideal.ofBits_one_f32]
  rfl

/-- The normalized second-stage row applied to the series read at lag one. -/
theorem mean52 (i : Fin 2048) (j : Fin 254) : val_main_v52 (F := Ideal) X A (ix2 i j) = mean X (next A) i (lag1 j) := by
  rw [val_main_v52_apply]
  unfold mean
  refine Finset.sum_congr rfl fun k _ => ?_
  rw [show lidx_main_v52 (ix2 i j) k = ix2 i k from Shape.idx_ext₂ rfl rfl,
    show ridx_main_v52 (ix2 i j) k = ix2 k j from Shape.idx_ext₂ rfl rfl, norm51, val_main_v31_apply, series31]

/-- The number of first-stage neighbours of row `i` (the sum the lag two term divides by, before the floor at 1). -/
theorem count60 (i : Fin 2048) : val_main_v60 (F := Ideal) A (ix1 i) = ∑ k : Fin 2048, near A i k := by
  rw [val_main_v60_apply, val_main_cst_6_apply, Ideal.ofBits_def, Ideal.ofBits_zero_f32, zero_add]
  refine Finset.sum_congr rfl fun k _ => ?_
  rw [show idx_main_v60 (ix1 i) k = ix2 i k from Shape.idx_ext₂ rfl rfl, val_main_v59_apply, near_val]

/-- The first-stage indicator row divided by its count, or by 1 when the row is empty. -/
theorem norm65 (i k : Fin 2048) : val_main_v65 (F := Ideal) A (ix2 i k) = Ideal.div (near A i k) (cnt (near A) i) := by
  rw [val_main_v65_apply, Ideal.hostDivf_def, val_main_v59_apply, near_val, val_main_v64_apply, val_main_v63_apply,
    Ideal.maximumf_def, val_main_v61_apply,
    show idx_main_v61 (idx_main_v64 (ix2 i k)) = ix1 i from funext fun a => Fin.ext (by match a with | ⟨0, _⟩ => rfl),
    count60, val_main_v62_apply, val_main_cst_7_apply, Ideal.ofBits_def, Ideal.ofBits_one_f32]
  rfl

/-- The normalized first-stage row applied to the series read at lag two. -/
theorem mean66 (i : Fin 2048) (j : Fin 254) : val_main_v66 (F := Ideal) X A (ix2 i j) = mean X (near A) i (lag2 j) := by
  rw [val_main_v66_apply]
  unfold mean
  refine Finset.sum_congr rfl fun k _ => ?_
  rw [show lidx_main_v66 (ix2 i j) k = ix2 i k from Shape.idx_ext₂ rfl rfl,
    show ridx_main_v66 (ix2 i j) k = ix2 k j from Shape.idx_ext₂ rfl rfl, norm65, val_main_v58_apply, series58]

/-- The number of second-stage neighbours of row `i` (the sum the lag two term divides by, before the floor at 1). -/
theorem count73 (i : Fin 2048) : val_main_v73 (F := Ideal) A (ix1 i) = ∑ k : Fin 2048, next A i k := by
  rw [val_main_v73_apply, val_main_cst_8_apply, Ideal.ofBits_def, Ideal.ofBits_zero_f32, zero_add]
  refine Finset.sum_congr rfl fun k _ => ?_
  rw [show idx_main_v73 (ix1 i) k = ix2 i k from Shape.idx_ext₂ rfl rfl, val_main_v72_apply, next_val]

/-- The second-stage indicator row divided by its count, or by 1 when the row is empty. -/
theorem norm78 (i k : Fin 2048) : val_main_v78 (F := Ideal) A (ix2 i k) = Ideal.div (next A i k) (cnt (next A) i) := by
  rw [val_main_v78_apply, Ideal.hostDivf_def, val_main_v72_apply, next_val, val_main_v77_apply, val_main_v76_apply,
    Ideal.maximumf_def, val_main_v74_apply,
    show idx_main_v74 (idx_main_v77 (ix2 i k)) = ix1 i from funext fun a => Fin.ext (by match a with | ⟨0, _⟩ => rfl),
    count73, val_main_v75_apply, val_main_cst_9_apply, Ideal.ofBits_def, Ideal.ofBits_one_f32]
  rfl

/-- The normalized second-stage row applied to the series read at lag two. -/
theorem mean79 (i : Fin 2048) (j : Fin 254) : val_main_v79 (F := Ideal) X A (ix2 i j) = mean X (next A) i (lag2 j) := by
  rw [val_main_v79_apply]
  unfold mean
  refine Finset.sum_congr rfl fun k _ => ?_
  rw [show lidx_main_v79 (ix2 i j) k = ix2 i k from Shape.idx_ext₂ rfl rfl,
    show ridx_main_v79 (ix2 i j) k = ix2 k j from Shape.idx_ext₂ rfl rfl, norm78, val_main_v58_apply, series58]

end Means

/-! ### The coefficients: one entry of a two-entry vector, read as a scalar and spread over the result -/

/-- A one-entry vector read as a scalar is its entry. -/
theorem cast0 {α : Type} (v : S1.Idx → α) (h : S1.ShapeCasts S_) (z : S_.Idx) : shapeCast S_ v h z = v (ix1 0) := by
  refine shapeCast_apply v h z (ix1 (0 : Fin 1)) ?_
  rw [Shape.rowMajor_val_one]
  have hz := (S_.rowMajor z).isLt
  have e : S_.numel = 1 := by simp [Shape.numel]
  show 0 = (S_.rowMajor z).val
  omega

theorem coef22 (c : (⟨S2, .f32⟩ : BufTy).Contents (Elt Ideal)) (y : S2048x254.Idx) : val_main_v22 (F := Ideal) c y = c (ix1 0) := by
  rw [val_main_v22_apply]
  unfold val_main_v21
  rw [cast0, val_main_v20_apply]
  exact congrArg c (funext fun a => Fin.ext (by match a with | ⟨0, _⟩ => rfl))

theorem coef28 (c : (⟨S2, .f32⟩ : BufTy).Contents (Elt Ideal)) (y : S2048x254.Idx) : val_main_v28 (F := Ideal) c y = c (ix1 1) := by
  rw [val_main_v28_apply]
  unfold val_main_v27
  rw [cast0, val_main_v26_apply]
  exact congrArg c (funext fun a => Fin.ext (by match a with | ⟨0, _⟩ => rfl))

theorem coef42 (c : (⟨S2, .f32⟩ : BufTy).Contents (Elt Ideal)) (y : S2048x254.Idx) : val_main_v42 (F := Ideal) c y = c (ix1 0) := by
  rw [val_main_v42_apply]
  unfold val_main_v41
  rw [cast0, val_main_v40_apply]
  exact congrArg c (funext fun a => Fin.ext (by match a with | ⟨0, _⟩ => rfl))

theorem coef55 (c : (⟨S2, .f32⟩ : BufTy).Contents (Elt Ideal)) (y : S2048x254.Idx) : val_main_v55 (F := Ideal) c y = c (ix1 0) := by
  rw [val_main_v55_apply]
  unfold val_main_v54
  rw [cast0, val_main_v53_apply]
  exact congrArg c (funext fun a => Fin.ext (by match a with | ⟨0, _⟩ => rfl))

theorem coef69 (c : (⟨S2, .f32⟩ : BufTy).Contents (Elt Ideal)) (y : S2048x254.Idx) : val_main_v69 (F := Ideal) c y = c (ix1 1) := by
  rw [val_main_v69_apply]
  unfold val_main_v68
  rw [cast0, val_main_v67_apply]
  exact congrArg c (funext fun a => Fin.ext (by match a with | ⟨0, _⟩ => rfl))

theorem coef82 (c : (⟨S2, .f32⟩ : BufTy).Contents (Elt Ideal)) (y : S2048x254.Idx) : val_main_v82 (F := Ideal) c y = c (ix1 1) := by
  rw [val_main_v82_apply]
  unfold val_main_v81
  rw [cast0, val_main_v80_apply]
  exact congrArg c (funext fun a => Fin.ext (by match a with | ⟨0, _⟩ => rfl))

/-! ### The result -/

theorem ref_eq (X : (⟨S2048x256, .f32⟩ : BufTy).Contents (Elt Ideal)) (A : (⟨S2048x2048, .f32⟩ : BufTy).Contents (Elt Ideal))
    (a b₀ b₁ : (⟨S2, .f32⟩ : BufTy).Contents (Elt Ideal)) :
    val_main_v84 (F := Ideal) X A a b₀ b₁ = Cert.Spec.G X A a b₀ b₁ := by
  funext y
  obtain ⟨i, j, rfl⟩ : ∃ (i : Fin 2048) (j : Fin 254), y = ix2 i j := ⟨y 0, y 1, eq_ix2 y⟩
  rw [Cert.Spec.G_apply]
  unfold Cert.Spec.out
  rw [val_main_v84_apply, val_main_v71_apply, val_main_v57_apply, val_main_v44_apply, val_main_v30_apply, val_main_v24_apply,
    val_main_v83_apply, val_main_v70_apply, val_main_v56_apply, val_main_v43_apply, val_main_v29_apply, val_main_v23_apply,
    val_main_v18_apply, val_main_cst_1_apply, Ideal.ofBits_def, Ideal.ofBits_zero_f32,
    coef22, coef28, coef42, coef55, coef69, coef82, mean39, mean52, mean66, mean79,
    val_main_v19_apply, series19, val_main_v25_apply, series25]
  simp only [Ideal.addf_def, Ideal.mulf_def]
  exact regroup _ _ _ _ _ _

end Cert.RefSpec

end
-- ==== Proof.lean ====
/-
  A pipelined kernel for one layer of a network autoregression against its plain reference: over the extended reals
  both compute, at row `i` and column `j` of a 2048 × 254 array,
      a[0]·X[i,j+1] + b₀[0]·mean₁ i (j+1) + b₁[0]·mean₂ i (j+1) + a[1]·X[i,j] + b₀[1]·mean₁ i j + b₁[1]·mean₂ i j,
  where `mean_r` averages the series `X` over the stage-`r` neighbours of node `i` in the graph whose edges are the
  nonzero weights (`Cert.Spec`). The kernel counts two-step walks through an indicator array that keeps the diagonal,
  the reference through one that drops it; the two second-stage neighbourhoods are the same set, because the walks that
  differ pass through an end point and so need the end points joined, which the second stage excludes. The six
  products are added in different orders; addition on the extended reals is commutative and associative, so no
  finiteness of the inputs is used.

  The three frames: the pipelined program's by the launch theorem for windows that share an array (its indicator
  array and its series are each read through two windows), at both instances; the reference's by its run.
  The idealization rewrote nothing, so `preserves` is `True`.
-/
import proofs.«112727_g65996467471051_cont_9to1c4b_428_2_alg».proof.Defs
import proofs.«112727_g65996467471051_cont_9to1c4b_428_2_alg».proof.Proof.Gen.Kernel
import proofs.«112727_g65996467471051_cont_9to1c4b_428_2_alg».proof.Proof.Gen.KernelIdeal
import proofs.«112727_g65996467471051_cont_9to1c4b_428_2_alg».proof.Proof.Gen.ReferenceIdeal
import proofs.«112727_g65996467471051_cont_9to1c4b_428_2_alg».proof.Proof.Gen.Pre_finite_inputs
import proofs.«112727_g65996467471051_cont_9to1c4b_428_2_alg».proof.Proof.FrameB
import proofs.«112727_g65996467471051_cont_9to1c4b_428_2_alg».proof.Proof.FrameI
import proofs.«112727_g65996467471051_cont_9to1c4b_428_2_alg».proof.Proof.KernelValue
import proofs.«112727_g65996467471051_cont_9to1c4b_428_2_alg».proof.Proof.RefRun
import proofs.«112727_g65996467471051_cont_9to1c4b_428_2_alg».proof.Proof.RefRead
import proofs.«112727_g65996467471051_cont_9to1c4b_428_2_alg».proof.Proof.RefSpec

noncomputable section

namespace Cert.Proof

open Idealize.ShloMosaic Idealize.ShloMosaic.TcCoe Idealize.SL.Sem

/-- The word-level program runs to the end and leaves its arguments. -/
theorem frame_k : Cert.frame_Kernel := fun m ρ _ => Cert.Kernel.Fr.frame m ρ

/-- So does its reading over the extended reals. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten. -/
theorem preserves : Cert.preserves_Kernel_KernelIdeal := trivial

/-- Both programs end with the specification's array of the arguments they agree on. -/
theorem algebraic : Cert.algebraic_KernelIdeal_ReferenceIdeal := by
  intro m ρ m' ρ' _ hagree
  refine ⟨fun c => Cert.KernelValue.spec m c, Cert.KernelValue.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v84_eq, Cert.RefSpec.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
